-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x160 : Shape := ⟨3, ![16, 2048, 160]⟩
abbrev S160x160 : Shape := ⟨2, ![160, 160]⟩
abbrev S160 : Shape := ⟨1, ![160]⟩
abbrev S_ : Shape := ⟨0, ![]⟩

class Facts : Prop where
  bcast_S_S16x2048x160 : S_.BroadcastsInDim S16x2048x160 (![] : Fin 0 → Fin S16x2048x160.rank)
  reducesTo_S16x2048x160_S_d0_1_2 : S16x2048x160.ReducesTo [0, 1, 2] S_
  h_S_ : 0 < S_.numel
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_

variable [Facts]

def fn_part2 {F : FTy → Type} [FloatOps F] (main_arg7 : FVec F S160 .f32) (main_v33 : IVec S_ 1) : IVec S_ 1 :=
  let main_v34 : FVec F S160 .f32 := Host.absf main_arg7
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  main_v38

def fn_part1 {F : FTy → Type} [FloatOps F] (main_arg4 : FVec F S160x160 .f32) (main_arg5 : FVec F S160 .f32) (main_arg6 : FVec F S160x160 .f32) (main_arg7 : FVec F S160 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160x160 .f32 := Host.absf main_arg4
  let main_cst_6 : FVec F S_ .f32 := constant S_ .f32 0x7F800000#32
  let main_v20 : FVec F S160x160 .f32 := broadcastInDim S160x160 ![] bcast_S_S160x160 main_cst_6
  let main_v21 : IVec S160x160 1 := cmpf .olt main_v19 main_v20
  let main_c_7 : IVec S_ 1 := constantI S_ 1 1#1
  let main_v22 : IVec S_ 1 := (fun x v => Host.reduce IntOp.andi x v reducesTo_S160x160_S_d0_1 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160x160 .f32 := Host.absf main_arg6
  let main_cst_10 : FVec F S_ .f32 := constant S_ .f32 0x7F800000#32
  let main_v30 : FVec F S160x160 .f32 := broadcastInDim S160x160 ![] bcast_S_S160x160 main_cst_10
  let main_v31 : IVec S160x160 1 := cmpf .olt main_v29 main_v30
  let main_c_11 : IVec S_ 1 := constantI S_ 1 1#1
  let main_v32 : IVec S_ 1 := (fun x v => Host.reduce IntOp.andi x v reducesTo_S160x160_S_d0_1 h_S_) main_v31 main_c_11
  let main_v33 : IVec S_ 1 := andi main_v28 main_v32
  fn_part2 (F := F) main_arg7 main_v33

def fn {F : FTy → Type} [FloatOps F] (main_arg0 : FVec F S16x2048x160 .f32) (main_arg1 : FVec F S16x2048x160 .f32) (main_arg2 : FVec F S160x160 .f32) (main_arg3 : FVec F S160 .f32) (main_arg4 : FVec F S160x160 .f32) (main_arg5 : FVec F S160 .f32) (main_arg6 : FVec F S160x160 .f32) (main_arg7 : FVec F S160 .f32) : IVec S_ 1 :=
  let main_v0 : FVec F S16x2048x160 .f32 := Host.absf main_arg0
  let main_cst : FVec F S_ .f32 := constant S_ .f32 0x7F800000#32
  let main_v1 : FVec F S16x2048x160 .f32 := broadcastInDim S16x2048x160 ![] bcast_S_S16x2048x160 main_cst
  let main_v2 : IVec S16x2048x160 1 := cmpf .olt main_v0 main_v1
  let main_c : IVec S_ 1 := constantI S_ 1 1#1
  let main_v3 : IVec S_ 1 := (fun x v => Host.reduce IntOp.andi x v reducesTo_S16x2048x160_S_d0_1_2 h_S_) main_v2 main_c
  let main_v4 : FVec F S16x2048x160 .f32 := Host.absf main_arg1
  let main_cst_0 : FVec F S_ .f32 := constant S_ .f32 0x7F800000#32
  let main_v5 : FVec F S16x2048x160 .f32 := broadcastInDim S16x2048x160 ![] bcast_S_S16x2048x160 main_cst_0
  let main_v6 : IVec S16x2048x160 1 := cmpf .olt main_v4 main_v5
  let main_c_1 : IVec S_ 1 := constantI S_ 1 1#1
  let main_v7 : IVec S_ 1 := (fun x v => Host.reduce IntOp.andi x v reducesTo_S16x2048x160_S_d0_1_2 h_S_) main_v6 main_c_1
  let main_v8 : IVec S_ 1 := andi main_v3 main_v7
  let main_v9 : FVec F S160x160 .f32 := Host.absf main_arg2
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg3
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg4 main_arg5 main_arg6 main_arg7 main_v13 main_v16
-- ==== Kernel.lean ====
abbrev S16x2048x160 : Shape := ⟨3, ![16, 2048, 160]⟩
abbrev S160x160 : Shape := ⟨2, ![160, 160]⟩
abbrev S160 : Shape := ⟨1, ![160]⟩
abbrev S1x160 : Shape := ⟨2, ![1, 160]⟩
abbrev S1x512x160 : Shape := ⟨3, ![1, 512, 160]⟩
abbrev S512x160 : Shape := ⟨2, ![512, 160]⟩
abbrev S1x2048x160 : Shape := ⟨3, ![1, 2048, 160]⟩
abbrev S2048x160 : Shape := ⟨2, ![2048, 160]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S1x160, .f32⟩
  | .hbm, ⟨9, _⟩ => ⟨S1x160, .f32⟩
  | .hbm, ⟨10, _⟩ => ⟨S1x160, .f32⟩
  | .hbm, ⟨11, _⟩ => ⟨S16x2048x160, .f32⟩
  | .hbm, ⟨12, _⟩ => ⟨S16x2048x160, .f32⟩
  | .hbm, ⟨13, _⟩ => ⟨S16x2048x160, .f32⟩
  | .local _ .vmem, ⟨0, _⟩ => ⟨S1x512x160, .f32⟩
  | .local _ .vmem, ⟨1, _⟩ => ⟨S1x512x160, .f32⟩
  | .local _ .vmem, ⟨2, _⟩ => ⟨S160x160, .f32⟩
  | .local _ .vmem, ⟨3, _⟩ => ⟨S1x160, .f32⟩
  | .local _ .vmem, ⟨4, _⟩ => ⟨S160x160, .f32⟩
  | .local _ .vmem, ⟨5, _⟩ => ⟨S1x160, .f32⟩
  | .local _ .vmem, ⟨6, _⟩ => ⟨S1x512x160, .f32⟩
  | .local _ .vmem, ⟨7, _⟩ => ⟨S1x512x160, .f32⟩
  | .local _ .vmem, ⟨8, _⟩ => ⟨S1x512x160, .f32⟩
  | .local _ .vmem, ⟨9, _⟩ => ⟨S1x512x160, .f32⟩
  | .local _ .vmem, ⟨10, _⟩ => ⟨S1x512x160, .f32⟩
  | .local _ .vmem, ⟨11, _⟩ => ⟨S1x512x160, .f32⟩
  | .local _ .vmem, ⟨12, _⟩ => ⟨S160x160, .f32⟩
  | .local _ .vmem, ⟨13, _⟩ => ⟨S1x160, .f32⟩
  | .local _ .vmem, ⟨14, _⟩ => ⟨S1x2048x160, .f32⟩
  | .local _ .vmem, ⟨15, _⟩ => ⟨S1x2048x160, .f32⟩
  | .local _ .vmem, ⟨16, _⟩ => ⟨S1x2048x160, .f32⟩
  | .local _ .vmem, ⟨17, _⟩ => ⟨S1x2048x160, .f32⟩
  | .local _ .vmem, ⟨18, _⟩ => ⟨S1x512x160, .f32⟩
  | .local _ .vmem, ⟨19, _⟩ => ⟨S1x512x160, .f32⟩
  | _, _ => ⟨S16x2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x160 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S160x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x160 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x160 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S160_S1x160 : S160.ShapeCasts S1x160
  inb_S1x512x160_S1x512x160_0_0_0 : ∀ a, (![0, 0, 0] : Fin 3 → Nat) a + S1x512x160.size a ≤ S1x512x160.size a
  h_S1x512x160 : 0 < S1x512x160.numel
  shapeCasts_S1x512x160_S512x160 : S1x512x160.ShapeCasts S512x160
  inb_S160x160_S160x160_0_0 : ∀ a, (![0, 0] : Fin 2 → Nat) a + S160x160.size a ≤ S160x160.size a
  h_S160x160 : 0 < S160x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S512x160 : S1x160.Broadcasts S512x160
  shapeCasts_S512x160_S1x512x160 : S512x160.ShapeCasts S1x512x160
  inb_S1x2048x160_S1x2048x160_0_0_0 : ∀ a, (![0, 0, 0] : Fin 3 → Nat) a + S1x2048x160.size a ≤ S1x2048x160.size a
  h_S1x2048x160 : 0 < S1x2048x160.numel
  shapeCasts_S1x2048x160_S2048x160 : S1x2048x160.ShapeCasts S2048x160
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  broadcasts_S512x1_S512x160 : S512x1.Broadcasts S512x160
  dot_S512x160_S160x160_S512x160_1_0_0_1_n_n_wf : DotDims.WF S512x160 S160x160 S512x160 [1] [0] [0] [1] [] []
  dot_S512x160_S2048x160_S512x2048_1_1_0_0_n_n_wf : DotDims.WF S512x160 S2048x160 S512x2048 [1] [1] [0] [0] [] []
  dot_S512x2048_S2048x160_S512x160_1_0_0_1_n_n_wf : DotDims.WF S512x2048 S2048x160 S512x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x160.size a ≤ S16x2048x160.size a
  hwx0_0 : ∀ i : grid0.Coords, EltTy.bits .f32 = 32 ∨ (Rect.block (s := S16x2048x160) S1x512x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x160.size a ≤ S160x160.size a
  hwx0_1 : ∀ i : grid0.Coords, EltTy.bits .f32 = 32 ∨ (Rect.block (s := S160x160) S160x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x160.size a ≤ S160x160.size a
  hwx0_3 : ∀ i : grid0.Coords, EltTy.bits .f32 = 32 ∨ (Rect.block (s := S160x160) S160x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x160.size a ≤ S16x2048x160.size a
  hwx0_5 : ∀ i : grid0.Coords, EltTy.bits .f32 = 32 ∨ (Rect.block (s := S16x2048x160) S1x512x160.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x160.size a ≤ S16x2048x160.size a
  hwx0_6 : ∀ i : grid0.Coords, EltTy.bits .f32 = 32 ∨ (Rect.block (s := S16x2048x160) S1x512x160.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x160.size a ≤ S16x2048x160.size a
  hwx1_0 : ∀ i : grid1.Coords, EltTy.bits .f32 = 32 ∨ (Rect.block (s := S16x2048x160) S1x512x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x160.size a ≤ S160x160.size a
  hwx1_1 : ∀ i : grid1.Coords, EltTy.bits .f32 = 32 ∨ (Rect.block (s := S160x160) S160x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x160.size a ≤ S1x160.size a
  hwx1_2 : ∀ i : grid1.Coords, EltTy.bits .f32 = 32 ∨ (Rect.block (s := S1x160) S1x160.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x160.size a ≤ S16x2048x160.size a
  hwx1_3 : ∀ i : grid1.Coords, EltTy.bits .f32 = 32 ∨ (Rect.block (s := S16x2048x160) S1x2048x160.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x160.size a ≤ S16x2048x160.size a
  hwx1_4 : ∀ i : grid1.Coords, EltTy.bits .f32 = 32 ∨ (Rect.block (s := S16x2048x160) S1x2048x160.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x160.size a ≤ S16x2048x160.size a
  hwx1_5 : ∀ i : grid1.Coords, EltTy.bits .f32 = 32 ∨ (Rect.block (s := S16x2048x160) S1x512x160.size (cc1_transform_5 i) (hinb1_5 i)).WholeWords (EltTy.packing .f32)

variable [Facts₀]

def dot_S512x160_S160x160_S512x160_1_0_0_1_n_n : DotDims S512x160 S160x160 S512x160 where
  lhsContracting := [1]
  rhsContracting := [0]
  lhsNonContracting := [0]
  rhsNonContracting := [1]
  lhsBatch := []
  rhsBatch := []
  wf := dot_S512x160_S160x160_S512x160_1_0_0_1_n_n_wf
def dot_S512x160_S2048x160_S512x2048_1_1_0_0_n_n : DotDims S512x160 S2048x160 S512x2048 where
  lhsContracting := [1]
  rhsContracting := [1]
  lhsNonContracting := [0]
  rhsNonContracting := [0]
  lhsBatch := []
  rhsBatch := []
  wf := dot_S512x160_S2048x160_S512x2048_1_1_0_0_n_n_wf
def dot_S512x2048_S2048x160_S512x160_1_0_0_1_n_n : DotDims S512x2048 S2048x160 S512x160 where
  lhsContracting := [1]
  rhsContracting := [0]
  lhsNonContracting := [0]
  rhsNonContracting := [1]
  lhsBatch := []
  rhsBatch := []
  wf := dot_S512x2048_S2048x160_S512x160_1_0_0_1_n_n_wf

abbrev win0_0 : Pipeline.Window sig grid0 :=
  Pipeline.Window.ofSpec (Memref.whole main_arg1) S1x512x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S160x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S160x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x512x160.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x512x160.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S160x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x2048x160.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x2048x160.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512x160.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x2048x160 : Shape := ⟨3, ![16, 2048, 160]⟩
abbrev S160x160 : Shape := ⟨2, ![160, 160]⟩
abbrev S160 : Shape := ⟨1, ![160]⟩
abbrev S1x1x160 : Shape := ⟨3, ![1, 1, 160]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S16x2048x160, .f32⟩
  | .hbm, ⟨9, _⟩ => ⟨S1x1x160, .f32⟩
  | .hbm, ⟨10, _⟩ => ⟨S16x2048x160, .f32⟩
  | .hbm, ⟨11, _⟩ => ⟨S16x2048x160, .f32⟩
  | .hbm, ⟨12, _⟩ => ⟨S16x2048x160, .f32⟩
  | .hbm, ⟨13, _⟩ => ⟨S1x1x160, .f32⟩
  | .hbm, ⟨14, _⟩ => ⟨S16x2048x160, .f32⟩
  | .hbm, ⟨15, _⟩ => ⟨S16x2048x160, .f32⟩
  | .hbm, ⟨16, _⟩ => ⟨S16x2048x160, .f32⟩
  | .hbm, ⟨17, _⟩ => ⟨S1x1x160, .f32⟩
  | .hbm, ⟨18, _⟩ => ⟨S16x2048x160, .f32⟩
  | .hbm, ⟨19, _⟩ => ⟨S16x2048x160, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x160, .f32⟩
  | .hbm, ⟨36, _⟩ => ⟨S16x2048x160, .f32⟩
  | _, _ => ⟨S16x2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S160_S1x1x160_2 : S160.BroadcastsInDim S1x1x160 (![2] : Fin 1 → Fin S1x1x160.rank)
  bcast_S1x1x160_S16x2048x160_0_1_2 : S1x1x160.BroadcastsInDim S16x2048x160 (![0, 1, 2] : Fin 3 → Fin S16x2048x160.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x160_S160x160_S16x2048x160_2_0_01_1_n_n_wf : DotDims.WF S16x2048x160 S160x160 S16x2048x160 [2] [0] [0, 1] [1] [] []
  dot_S16x2048x160_S16x2048x160_S16x2048x2048_2_2_1_1_0_0_wf : DotDims.WF S16x2048x160 S16x2048x160 S16x2048x2048 [2] [2] [1] [1] [0] [0]
  dot_S16x2048x2048_S16x2048x160_S16x2048x160_2_1_1_2_0_0_wf : DotDims.WF S16x2048x2048 S16x2048x160 S16x2048x160 [2] [1] [1] [2] [0] [0]

variable [Facts₀]

def dot_S16x2048x160_S160x160_S16x2048x160_2_0_01_1_n_n : DotDims S16x2048x160 S160x160 S16x2048x160 where
  lhsContracting := [2]
  rhsContracting := [0]
  lhsNonContracting := [0, 1]
  rhsNonContracting := [1]
  lhsBatch := []
  rhsBatch := []
  wf := dot_S16x2048x160_S160x160_S16x2048x160_2_0_01_1_n_n_wf
def dot_S16x2048x160_S16x2048x160_S16x2048x2048_2_2_1_1_0_0 : DotDims S16x2048x160 S16x2048x160 S16x2048x2048 where
  lhsContracting := [2]
  rhsContracting := [2]
  lhsNonContracting := [1]
  rhsNonContracting := [1]
  lhsBatch := [0]
  rhsBatch := [0]
  wf := dot_S16x2048x160_S16x2048x160_S16x2048x2048_2_2_1_1_0_0_wf
def dot_S16x2048x2048_S16x2048x160_S16x2048x160_2_1_1_2_0_0 : DotDims S16x2048x2048 S16x2048x160 S16x2048x160 where
  lhsContracting := [2]
  rhsContracting := [1]
  lhsNonContracting := [1]
  rhsNonContracting := [2]
  lhsBatch := [0]
  rhsBatch := [0]
  wf := dot_S16x2048x2048_S16x2048x160_S16x2048x160_2_1_1_2_0_0_wf

class Facts : Prop extends Facts₀ where

variable [Facts]
-- ==== Proof.AttnSpec.lean ====
/-
  Single-head cross-attention with a residual, written once on the extended reals as a function of the eight
  argument arrays, in curried form over the literal extents (16 batches, 2048 rows, 160 features).

  For one query row with score row s over the 2048 keys, m = max_j s_j, w_j = exp (s_j - m) and l = ∑_j w_j.
  One arrangement normalises AFTER the weighted sum, (∑_j w_j · v_j) · (1 / l); the other normalises the weights
  first, ∑_j (w_j / l) · v_j. On the extended reals the two agree as soon as l is a positive REAL: then both
  quotients are products with the nonnegative real 1 / l, and a product with a nonnegative real distributes over
  every sum of extended reals. l is a positive real when every score is real (the maximum is then real, each
  weight is a positive real, and one weight is exp 0 = 1), and the scores are real when the query and key
  projections' inputs are.
-/
import Idealize.ShloMosaic.PureOps.Ideal
import Idealize.ShloMosaic.PureOps.Ideal.Laws
import Idealize.ShloMosaic.Lib.ValueIdx
import Mathlib.Data.EReal.Operations
import Mathlib.Data.EReal.Inv

noncomputable section

namespace Cert.Attn

open Idealize.ShloMosaic

/-- An activation array [16, 2048, 160], a weight matrix [160, 160] and a bias [160], curried. -/
abbrev Act := Fin 16 → Fin 2048 → Fin 160 → EReal
abbrev Wt := Fin 160 → Fin 160 → EReal
abbrev Bias := Fin 160 → EReal

/-- A linear layer applied to every row: a[n, r, :] · W[:, e] + b[e]. -/
def proj (a : Act) (W : Wt) (b : Bias) : Act := fun n r e => (∑ d : Fin 160, a n r d * W d e) + b e

/-- The score of query row i against key row j of batch n: the inner product over the features. -/
def score (q k : Act) (n : Fin 16) (i : Fin 2048) : Fin 2048 → EReal := fun j => ∑ e : Fin 160, q n i e * k n j e

/-- The word both programs start the row maximum from (f32's minus infinity). -/
def negInf : EReal := Ideal.ofBits .f32 0xFF800000#32

/-- The f32 word of 1.0, the numerator of the reciprocal one arrangement takes. -/
def one32 : EReal := Ideal.ofBits .f32 0x3F800000#32

/-- The maximum of a score row. -/
def rowMax (s : Fin 2048 → EReal) : EReal := (Finset.univ : Finset (Fin 2048)).fold max negInf s

/-- The unnormalised softmax weight of key j. -/
def weight (s : Fin 2048 → EReal) : Fin 2048 → EReal := fun j => Ideal.exp (s j - rowMax s)

/-- The softmax denominator of the row. -/
def denom (s : Fin 2048 → EReal) : EReal := ∑ j : Fin 2048, weight s j

/-- The score row of query (n, i): queries from x, keys from y. -/
def scores (x y : Act) (Wq : Wt) (bq : Bias) (Wk : Wt) (bk : Bias) (n : Fin 16) (i : Fin 2048) : Fin 2048 → EReal :=
  score (proj x Wq bq) (proj y Wk bk) n i

/-- Normalising after the weighted sum of the values. -/
def outAfter (x y : Act) (Wq : Wt) (bq : Bias) (Wk : Wt) (bk : Bias) (Wv : Wt) (bv : Bias) : Act := fun n i e =>
  (∑ j : Fin 2048, weight (scores x y Wq bq Wk bk n i) j * proj y Wv bv n j e)
      * Ideal.div one32 (denom (scores x y Wq bq Wk bk n i)) + x n i e

/-- Normalising the weights before the weighted sum of the values. -/
def outBefore (x y : Act) (Wq : Wt) (bq : Bias) (Wk : Wt) (bk : Bias) (Wv : Wt) (bv : Bias) : Act := fun n i e =>
  (∑ j : Fin 2048, Ideal.div (weight (scores x y Wq bq Wk bk n i) j) (denom (scores x y Wq bq Wk bk n i)) * proj y Wv bv n j e)
      + x n i e

/-! ## Rows and blocks

The kernels compute one block of rows at a time; a row of either output depends on its own row of the input only,
so the whole-array functions above are these per-row functions, by definition. -/

/-- One row of a linear layer. -/
def projRow (ar : Fin 160 → EReal) (W : Wt) (b : Bias) : Fin 160 → EReal := fun e => (∑ d : Fin 160, ar d * W d e) + b e

theorem proj_eq_projRow (a : Act) (W : Wt) (b : Bias) (n : Fin 16) (r : Fin 2048) (e : Fin 160) :
    proj a W b n r e = projRow (a n r) W b e := rfl

/-- The scores of one query row xr against the 2048 key rows kb of its batch. -/
def rowScores (xr : Fin 160 → EReal) (Wq : Wt) (bq : Bias) (kb : Fin 2048 → Fin 160 → EReal) : Fin 2048 → EReal :=
  fun j => ∑ f : Fin 160, projRow xr Wq bq f * kb j f

/-- One row of the output that normalises after the weighted sum, from the row's input, the batch's keys kb and values vb. -/
def attnRow (xr : Fin 160 → EReal) (Wq : Wt) (bq : Bias) (kb vb : Fin 2048 → Fin 160 → EReal) : Fin 160 → EReal := fun e =>
  (∑ j : Fin 2048, weight (rowScores xr Wq bq kb) j * vb j e) * Ideal.div one32 (denom (rowScores xr Wq bq kb)) + xr e

theorem outAfter_eq_attnRow (x y : Act) (Wq : Wt) (bq : Bias) (Wk : Wt) (bk : Bias) (Wv : Wt) (bv : Bias)
    (n : Fin 16) (i : Fin 2048) (e : Fin 160) :
    outAfter x y Wq bq Wk bk Wv bv n i e = attnRow (x n i) Wq bq (proj y Wk bk n) (proj y Wv bv n) e := rfl

/-! ## Arrays as the programs hold them: functions of a shape's index -/

open ValueIdx in
/-- An array over a literal rank-3 shape, curried; and back. -/
def cur3 {n0 n1 n2 : Nat} (a : (⟨3, ![n0, n1, n2]⟩ : Shape).Idx → EReal) : Fin n0 → Fin n1 → Fin n2 → EReal :=
  fun p q r => a (ix3 p q r)
open ValueIdx in
def cur2 {n0 n1 : Nat} (a : (⟨2, ![n0, n1]⟩ : Shape).Idx → EReal) : Fin n0 → Fin n1 → EReal := fun p q => a (ix2 p q)
open ValueIdx in
def cur1 {n0 : Nat} (a : (⟨1, ![n0]⟩ : Shape).Idx → EReal) : Fin n0 → EReal := fun p => a (ix1 p)
def unc3 {n0 n1 n2 : Nat} (f : Fin n0 → Fin n1 → Fin n2 → EReal) : (⟨3, ![n0, n1, n2]⟩ : Shape).Idx → EReal :=
  fun i => f (i 0) (i 1) (i 2)

open ValueIdx in
theorem unc3_ix3 {n0 n1 n2 : Nat} (f : Fin n0 → Fin n1 → Fin n2 → EReal) (p : Fin n0) (q : Fin n1) (r : Fin n2) :
    unc3 f (ix3 p q r) = f p q r := rfl

open ValueIdx in
/-- Two rank-3 arrays that agree at every triple of coordinates are equal. -/
theorem ext3 {n0 n1 n2 : Nat} {a b : (⟨3, ![n0, n1, n2]⟩ : Shape).Idx → EReal}
    (h : ∀ (p : Fin n0) (q : Fin n1) (r : Fin n2), a (ix3 p q r) = b (ix3 p q r)) : a = b :=
  funext fun i => by rw [eq_ix3 i]; exact h _ _ _

/-! ## Real entries -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨t, rfl⟩ := hb; exact ⟨r + t, (EReal.coe_add r t).symm⟩

theorem IsReal.mul {a b : EReal} (ha : IsReal a) (hb : IsReal b) : IsReal (a * b) := by
  obtain ⟨r, rfl⟩ := ha; obtain ⟨t, rfl⟩ := hb; exact ⟨r * t, (EReal.coe_mul r t).symm⟩

/-- A finite sum of reals is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type} [Fintype ι] {f : ι → EReal} (hf : ∀ k, IsReal (f k)) : IsReal (∑ k, f k) := by
  choose g hg using hf
  exact ⟨∑ k, g k, by rw [← sum_coe]; exact Finset.sum_congr rfl fun k _ => hg k⟩

theorem proj_isReal {a : Act} {W : Wt} {b : Bias} (ha : ∀ n r d, IsReal (a n r d)) (hW : ∀ d e, IsReal (W d e))
    (hb : ∀ e, IsReal (b e)) (n : Fin 16) (r : Fin 2048) (e : Fin 160) : IsReal (proj a W b n r e) :=
  (IsReal.sum fun d => (ha n r d).mul (hW d e)).add (hb e)

theorem score_isReal {q k : Act} (hq : ∀ n r d, IsReal (q n r d)) (hk : ∀ n r d, IsReal (k n r d))
    (n : Fin 16) (i j : Fin 2048) : IsReal (score q k n i j) :=
  IsReal.sum fun e => (hq n i e).mul (hk n j e)

/-! ## The denominator of a real score row -/

theorem negInf_eq : negInf = ⊥ := by
  simp [negInf, Ideal.ofBits, Ideal.ieee]

theorem one32_eq : one32 = 1 := IdealRules.sign_bit.ideal_onePat .f32

/-- The maximum of a row of reals is a real. -/
theorem rowMax_isReal {s : Fin 2048 → EReal} (hs : ∀ j, IsReal (s j)) : IsReal (rowMax s) := by
  have hlt : rowMax s < ⊤ := by
    unfold rowMax
    rw [Finset.fold_max_lt]
    refine ⟨by rw [negInf_eq]; exact bot_lt_top, fun j _ => ?_⟩
    obtain ⟨r, hr⟩ := hs j; rw [hr]; exact EReal.coe_lt_top r
  have hgt : ⊥ < rowMax s := by
    obtain ⟨r, hr⟩ := hs 0
    refine lt_of_lt_of_le (b := s 0) (by rw [hr]; exact EReal.bot_lt_coe r) ?_
    unfold rowMax
    rw [Finset.le_fold_max]
    exact Or.inr ⟨0, Finset.mem_univ _, le_refl _⟩
  exact ⟨(rowMax s).toReal, (EReal.coe_toReal hlt.ne hgt.ne').symm⟩

/-- The denominator of a row of reals is a positive real. -/
theorem denom_pos_real {s : Fin 2048 → EReal} (hs : ∀ j, IsReal (s j)) : ∃ l : ℝ, 0 < l ∧ denom s = (l : EReal) := by
  obtain ⟨mr, hm⟩ := rowMax_isReal hs
  choose sr hsr using hs
  have hw : ∀ j, weight s j = ((Real.exp (sr j - mr) : ℝ) : EReal) := fun j => by
    unfold weight
    rw [hm, hsr j, ← EReal.coe_sub, Ideal.exp_coe]
  refine ⟨∑ j : Fin 2048, Real.exp (sr j - mr), Finset.sum_pos (fun j _ => Real.exp_pos _) ⟨0, Finset.mem_univ _⟩, ?_⟩
  unfold denom
  rw [← sum_coe]
  exact Finset.sum_congr rfl fun j _ => hw j

/-! ## The law -/

/-- A product with a nonnegative real distributes over any finite sum of extended reals. -/
theorem sum_mul_nonneg_real {ι : Type} (s : Finset ι) (f : ι → EReal) {c : EReal} (hc : 0 ≤ c) (hc' : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top hc hc', ih]

/-- Normalising after the weighted sum is normalising before it, for a row whose denominator is a positive real. -/
theorem normalise_after_eq_before (w v : Fin 2048 → EReal) {l : ℝ} (hl : 0 < l) :
    (∑ j : Fin 2048, w j * v j) * Ideal.div one32 (l : EReal) = ∑ j : Fin 2048, Ideal.div (w j) (l : EReal) * v j := by
  have hc : (0 : EReal) ≤ ((1 / l : ℝ) : EReal) := by exact_mod_cast (one_div_pos.mpr hl).le
  have hc' : ((1 / l : ℝ) : EReal) ≠ ⊤ := EReal.coe_ne_top _
  rw [Ideal.div_coe hl.ne', one32_eq, one_mul, sum_mul_nonneg_real _ _ hc hc']
  refine Finset.sum_congr rfl fun j _ => ?_
  rw [Ideal.div_coe hl.ne', mul_right_comm]

/-- The two arrangements of the attention output agree when the arrays the scores are computed from hold reals. -/
theorem outAfter_eq_outBefore {x y : Act} {Wq : Wt} {bq : Bias} {Wk : Wt} {bk : Bias} (Wv : Wt) (bv : Bias)
    (hx : ∀ n r d, IsReal (x n r d)) (hy : ∀ n r d, IsReal (y n r d))
    (hWq : ∀ d e, IsReal (Wq d e)) (hbq : ∀ e, IsReal (bq e)) (hWk : ∀ d e, IsReal (Wk d e)) (hbk : ∀ e, IsReal (bk e)) :
    outAfter x y Wq bq Wk bk Wv bv = outBefore x y Wq bq Wk bk Wv bv := by
  funext n i e
  have hs : ∀ j, IsReal (scores x y Wq bq Wk bk n i j) := fun j =>
    score_isReal (proj_isReal hx hWq hbq) (proj_isReal hy hWk hbk) n i j
  obtain ⟨l, hl, hd⟩ := denom_pos_real hs
  unfold outAfter outBefore
  rw [hd, normalise_after_eq_before _ _ hl]

end Cert.Attn

end
-- ==== Proof.AttnPayload.lean ====
/-
  The attention body's stored block, read at one element. For query row p of the loaded block the body forms the
  row's projection q, its scores against the 2048 loaded key rows, their maximum, the exponentials of the differences,
  their sum l, the weighted sum of the loaded value rows, multiplies it by 1 / l and adds the row of x back. Casts
  between float formats are the identity on the extended reals, the two reductions are a fold of max and a sum over
  the key index, and each matrix product into a zero accumulator is the plain sum over its contracted index.
-/
import proofs.«132824_g83305185673742_cont_9to1c4b_147_4_alg».proof.Proof.Gen.KernelIdeal.Skeleton
import proofs.«132824_g83305185673742_cont_9to1c4b_147_4_alg».proof.Proof.AttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnPayload

open Cert.KernelIdeal Cert.KernelIdeal.Gen Cert.Attn
open Idealize.ShloMosaic Idealize.ShloMosaic.ValueIdx

/-! ## A column from a vector, and a column spread over the rows' entries -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three matrix products, each into a zero accumulator -/

theorem lhsQ_0 (i : S512x160.Idx) (q : dot_S512x160_S160x160_S512x160_1_0_0_1_n_n.contr.Idx) :
    (dot_S512x160_S160x160_S512x160_1_0_0_1_n_n.lhsIdx i q 0).val = (i 0).val := by
  unfold DotDims.lhsIdx
  rw [dif_neg (show ¬(0 : Fin S512x160.rank) ∈ dot_S512x160_S160x160_S512x160_1_0_0_1_n_n.lhsBatch by decide), dif_pos (show (0 : Fin S512x160.rank) ∈ dot_S512x160_S160x160_S512x160_1_0_0_1_n_n.lhsNonContracting by decide)]
  rfl
theorem lhsQ_1 (i : S512x160.Idx) (q : dot_S512x160_S160x160_S512x160_1_0_0_1_n_n.contr.Idx) :
    (dot_S512x160_S160x160_S512x160_1_0_0_1_n_n.lhsIdx i q 1).val = (q ⟨0, by decide⟩).val :=
  dot_S512x160_S160x160_S512x160_1_0_0_1_n_n.lhsIdx_val_of_single rfl i q
theorem rhsQ_0 (i : S512x160.Idx) (q : dot_S512x160_S160x160_S512x160_1_0_0_1_n_n.contr.Idx) :
    (dot_S512x160_S160x160_S512x160_1_0_0_1_n_n.rhsIdx i q 0).val = (q ⟨0, by decide⟩).val :=
  dot_S512x160_S160x160_S512x160_1_0_0_1_n_n.rhsIdx_val_of_single rfl i q
theorem rhsQ_1 (i : S512x160.Idx) (q : dot_S512x160_S160x160_S512x160_1_0_0_1_n_n.contr.Idx) :
    (dot_S512x160_S160x160_S512x160_1_0_0_1_n_n.rhsIdx i q 1).val = (i 1).val := by
  unfold DotDims.rhsIdx
  rw [dif_neg (show ¬(1 : Fin S160x160.rank) ∈ dot_S512x160_S160x160_S512x160_1_0_0_1_n_n.rhsBatch by decide), dif_pos (show (1 : Fin S160x160.rank) ∈ dot_S512x160_S160x160_S512x160_1_0_0_1_n_n.rhsNonContracting by decide)]
  rfl

/-- The projection's product: rows of `a` against columns of `w`, summed over the 160 features. -/
theorem matmulQ_apply (a : FVec Ideal S512x160 .f32) (w : FVec Ideal S160x160 .f32) (p : Fin 512) (f : Fin 160) :
    matmul dot_S512x160_S160x160_S512x160_1_0_0_1_n_n none a w (constant (F := Ideal) S512x160 .f32 0x00000000#32) (ix2 p f)
      = ∑ d : Fin 160, a (ix2 p d) * w (ix2 d f) := by
  simp only [matmul]
  rw [Ideal.matmul_constant_zero_apply, ← Equiv.sum_comp (ValueIdx.contrEquiv1 dot_S512x160_S160x160_S512x160_1_0_0_1_n_n 160 rfl rfl).symm]
  refine Finset.sum_congr rfl fun k _ => ?_
  have hk := ValueIdx.contrEquiv1_symm_val dot_S512x160_S160x160_S512x160_1_0_0_1_n_n 160 rfl rfl k
  have el : dot_S512x160_S160x160_S512x160_1_0_0_1_n_n.lhsIdx (ix2 p f) ((ValueIdx.contrEquiv1 dot_S512x160_S160x160_S512x160_1_0_0_1_n_n 160 rfl rfl).symm k) = ix2 p k := funext fun a => Fin.ext (by
    match a with
    | ⟨0, _⟩ => exact lhsQ_0 _ _
    | ⟨1, _⟩ => exact (lhsQ_1 _ _).trans hk)
  have er : dot_S512x160_S160x160_S512x160_1_0_0_1_n_n.rhsIdx (ix2 p f) ((ValueIdx.contrEquiv1 dot_S512x160_S160x160_S512x160_1_0_0_1_n_n 160 rfl rfl).symm k) = ix2 k f := funext fun a => Fin.ext (by
    match a with
    | ⟨0, _⟩ => exact (rhsQ_0 _ _).trans hk
    | ⟨1, _⟩ => exact rhsQ_1 _ _)
  rw [el, er]

theorem lhsS_0 (i : S512x2048.Idx) (q : dot_S512x160_S2048x160_S512x2048_1_1_0_0_n_n.contr.Idx) :
    (dot_S512x160_S2048x160_S512x2048_1_1_0_0_n_n.lhsIdx i q 0).val = (i 0).val := by
  unfold DotDims.lhsIdx
  rw [dif_neg (show ¬(0 : Fin S512x160.rank) ∈ dot_S512x160_S2048x160_S512x2048_1_1_0_0_n_n.lhsBatch by decide), dif_pos (show (0 : Fin S512x160.rank) ∈ dot_S512x160_S2048x160_S512x2048_1_1_0_0_n_n.lhsNonContracting by decide)]
  rfl
theorem lhsS_1 (i : S512x2048.Idx) (q : dot_S512x160_S2048x160_S512x2048_1_1_0_0_n_n.contr.Idx) :
    (dot_S512x160_S2048x160_S512x2048_1_1_0_0_n_n.lhsIdx i q 1).val = (q ⟨0, by decide⟩).val :=
  dot_S512x160_S2048x160_S512x2048_1_1_0_0_n_n.lhsIdx_val_of_single rfl i q
theorem rhsS_0 (i : S512x2048.Idx) (q : dot_S512x160_S2048x160_S512x2048_1_1_0_0_n_n.contr.Idx) :
    (dot_S512x160_S2048x160_S512x2048_1_1_0_0_n_n.rhsIdx i q 0).val = (i 1).val := by
  unfold DotDims.rhsIdx
  rw [dif_neg (show ¬(0 : Fin S2048x160.rank) ∈ dot_S512x160_S2048x160_S512x2048_1_1_0_0_n_n.rhsBatch by decide), dif_pos (show (0 : Fin S2048x160.rank) ∈ dot_S512x160_S2048x160_S512x2048_1_1_0_0_n_n.rhsNonContracting by decide)]
  rfl
theorem rhsS_1 (i : S512x2048.Idx) (q : dot_S512x160_S2048x160_S512x2048_1_1_0_0_n_n.contr.Idx) :
    (dot_S512x160_S2048x160_S512x2048_1_1_0_0_n_n.rhsIdx i q 1).val = (q ⟨0, by decide⟩).val :=
  dot_S512x160_S2048x160_S512x2048_1_1_0_0_n_n.rhsIdx_val_of_single rfl i q

/-- The scores' product: a query row against a key row, summed over the 160 features. -/
theorem matmulS_apply (a : FVec Ideal S512x160 .bf16) (k : FVec Ideal S2048x160 .bf16) (p : Fin 512) (j : Fin 2048) :
    matmul dot_S512x160_S2048x160_S512x2048_1_1_0_0_n_n none a k (constant (F := Ideal) S512x2048 .f32 0x00000000#32) (ix2 p j)
      = ∑ f : Fin 160, a (ix2 p f) * k (ix2 j f) := by
  simp only [matmul]
  rw [Ideal.matmul_constant_zero_apply, ← Equiv.sum_comp (ValueIdx.contrEquiv1 dot_S512x160_S2048x160_S512x2048_1_1_0_0_n_n 160 rfl rfl).symm]
  refine Finset.sum_congr rfl fun f _ => ?_
  have hk := ValueIdx.contrEquiv1_symm_val dot_S512x160_S2048x160_S512x2048_1_1_0_0_n_n 160 rfl rfl f
  have el : dot_S512x160_S2048x160_S512x2048_1_1_0_0_n_n.lhsIdx (ix2 p j) ((ValueIdx.contrEquiv1 dot_S512x160_S2048x160_S512x2048_1_1_0_0_n_n 160 rfl rfl).symm f) = ix2 p f := funext fun a => Fin.ext (by
    match a with
    | ⟨0, _⟩ => exact lhsS_0 _ _
    | ⟨1, _⟩ => exact (lhsS_1 _ _).trans hk)
  have er : dot_S512x160_S2048x160_S512x2048_1_1_0_0_n_n.rhsIdx (ix2 p j) ((ValueIdx.contrEquiv1 dot_S512x160_S2048x160_S512x2048_1_1_0_0_n_n 160 rfl rfl).symm f) = ix2 j f := funext fun a => Fin.ext (by
    match a with
    | ⟨0, _⟩ => exact rhsS_0 _ _
    | ⟨1, _⟩ => exact (rhsS_1 _ _).trans hk)
  rw [el, er]

theorem lhsV_0 (i : S512x160.Idx) (q : dot_S512x2048_S2048x160_S512x160_1_0_0_1_n_n.contr.Idx) :
    (dot_S512x2048_S2048x160_S512x160_1_0_0_1_n_n.lhsIdx i q 0).val = (i 0).val := by
  unfold DotDims.lhsIdx
  rw [dif_neg (show ¬(0 : Fin S512x2048.rank) ∈ dot_S512x2048_S2048x160_S512x160_1_0_0_1_n_n.lhsBatch by decide), dif_pos (show (0 : Fin S512x2048.rank) ∈ dot_S512x2048_S2048x160_S512x160_1_0_0_1_n_n.lhsNonContracting by decide)]
  rfl
theorem lhsV_1 (i : S512x160.Idx) (q : dot_S512x2048_S2048x160_S512x160_1_0_0_1_n_n.contr.Idx) :
    (dot_S512x2048_S2048x160_S512x160_1_0_0_1_n_n.lhsIdx i q 1).val = (q ⟨0, by decide⟩).val :=
  dot_S512x2048_S2048x160_S512x160_1_0_0_1_n_n.lhsIdx_val_of_single rfl i q
theorem rhsV_0 (i : S512x160.Idx) (q : dot_S512x2048_S2048x160_S512x160_1_0_0_1_n_n.contr.Idx) :
    (dot_S512x2048_S2048x160_S512x160_1_0_0_1_n_n.rhsIdx i q 0).val = (q ⟨0, by decide⟩).val :=
  dot_S512x2048_S2048x160_S512x160_1_0_0_1_n_n.rhsIdx_val_of_single rfl i q
theorem rhsV_1 (i : S512x160.Idx) (q : dot_S512x2048_S2048x160_S512x160_1_0_0_1_n_n.contr.Idx) :
    (dot_S512x2048_S2048x160_S512x160_1_0_0_1_n_n.rhsIdx i q 1).val = (i 1).val := by
  unfold DotDims.rhsIdx
  rw [dif_neg (show ¬(1 : Fin S2048x160.rank) ∈ dot_S512x2048_S2048x160_S512x160_1_0_0_1_n_n.rhsBatch by decide), dif_pos (show (1 : Fin S2048x160.rank) ∈ dot_S512x2048_S2048x160_S512x160_1_0_0_1_n_n.rhsNonContracting by decide)]
  rfl

/-- The values' product: a row of weights against a column of the value rows, summed over the 2048 keys. -/
theorem matmulV_apply (w : FVec Ideal S512x2048 .bf16) (v : FVec Ideal S2048x160 .bf16) (p : Fin 512) (e : Fin 160) :
    matmul dot_S512x2048_S2048x160_S512x160_1_0_0_1_n_n none w v (constant (F := Ideal) S512x160 .f32 0x00000000#32) (ix2 p e)
      = ∑ j : Fin 2048, w (ix2 p j) * v (ix2 j e) := by
  simp only [matmul]
  rw [Ideal.matmul_constant_zero_apply, ← Equiv.sum_comp (ValueIdx.contrEquiv1 dot_S512x2048_S2048x160_S512x160_1_0_0_1_n_n 2048 rfl rfl).symm]
  refine Finset.sum_congr rfl fun j _ => ?_
  have hk := ValueIdx.contrEquiv1_symm_val dot_S512x2048_S2048x160_S512x160_1_0_0_1_n_n 2048 rfl rfl j
  have el : dot_S512x2048_S2048x160_S512x160_1_0_0_1_n_n.lhsIdx (ix2 p e) ((ValueIdx.contrEquiv1 dot_S512x2048_S2048x160_S512x160_1_0_0_1_n_n 2048 rfl rfl).symm j) = ix2 p j := funext fun a => Fin.ext (by
    match a with
    | ⟨0, _⟩ => exact lhsV_0 _ _
    | ⟨1, _⟩ => exact (lhsV_1 _ _).trans hk)
  have er : dot_S512x2048_S2048x160_S512x160_1_0_0_1_n_n.rhsIdx (ix2 p e) ((ValueIdx.contrEquiv1 dot_S512x2048_S2048x160_S512x160_1_0_0_1_n_n 2048 rfl rfl).symm j) = ix2 j e := funext fun a => Fin.ext (by
    match a with
    | ⟨0, _⟩ => exact (rhsV_0 _ _).trans hk
    | ⟨1, _⟩ => exact rhsV_1 _ _)
  rw [el, er]

/-! ## The two reductions over the key index -/

/-- The row maximum: the fold of max from minus infinity over the 2048 entries of row p. -/
theorem rowMaxRed_apply (s : FVec Ideal S512x2048 .f32) (h : S512x2048.Reduces [1] S512) (hφ : FKind.Formats .f32)
    (hacc : (0xFF800000#32 : BitVec 32) = 0xFF800000#32) (p : Fin 512) :
    multiReduction .maximumf [1] S512 s 0xFF800000#32 h hφ hacc (ix1 p) = rowMax fun j => s (ix2 p j) := by
  refine (Ideal.multiReduction_maximumf_single (φ := .f32) s 0xFF800000#32 h hφ hacc (ix1 p)).trans ?_
  show (Finset.univ : Finset (Fin 2048)).fold max (Ideal.ofBits .f32 0xFF800000#32) (fun j : Fin 2048 => s (h.lift (ix1 p) j)) = _
  unfold rowMax negInf
  refine congrArg (fun g => Finset.fold max _ g Finset.univ) (funext fun j => congrArg s (funext fun a => Fin.ext ?_))
  match a with
  | ⟨0, _⟩ => rfl
  | ⟨1, _⟩ => rfl

/-- The row sum: the sum over the 2048 entries of row p. -/
theorem rowSumRed_apply (s : FVec Ideal S512x2048 .f32) (h : S512x2048.Reduces [1] S512) (hφ : FKind.Formats .f32)
    (hacc : (0x00000000#32 : BitVec 32) = 0x00000000#32) (p : Fin 512) :
    multiReduction .add [1] S512 s 0x00000000#32 h hφ hacc (ix1 p) = ∑ j : Fin 2048, s (ix2 p j) := by
  refine (Ideal.multiReduction_add_single (φ := .f32) s 0x00000000#32 h hφ hacc (ix1 p)).trans ?_
  show ∑ j : Fin 2048, s (h.lift (ix1 p) j) = _
  refine Finset.sum_congr rfl fun j _ => congrArg s (funext fun a => Fin.ext ?_)
  match a with
  | ⟨0, _⟩ => rfl
  | ⟨1, _⟩ => rfl

/-- The exponential of an array, read at an index, is the exponential of the entry. -/
theorem exp_apply {s : Shape} {φ : FTy} (a : FVec Ideal s φ) (i : s.Idx) : exp a i = Ideal.exp (a i) := rfl

/-! ## The body's stages, as arrays -/

/-- The projected query rows: the block's rows times the weight matrix, plus the bias row. -/
def qRows (x0 : FVec Ideal S1x512x160 .f32) (x1 : FVec Ideal S160x160 .f32) (x2 : FVec Ideal S1x160 .f32) :
    FVec Ideal S512x160 .f32 :=
  addf (matmul dot_S512x160_S160x160_S512x160_1_0_0_1_n_n none (shapeCast S512x160 x0 shapeCasts_S1x512x160_S512x160) x1
      (constant S512x160 .f32 0x00000000#32))
    (broadcastTo S512x160 (shapeCast S1x160 x2 shapeCasts_S1x160_S1x160) broadcasts_S1x160_S512x160)

/-- A projected query row is the row's linear layer. -/
theorem qRows_apply (x0 : FVec Ideal S1x512x160 .f32) (x1 : FVec Ideal S160x160 .f32) (x2 : FVec Ideal S1x160 .f32)
    (p : Fin 512) (f : Fin 160) :
    qRows x0 x1 x2 (ix2 p f) = projRow (fun d => x0 (ix3 0 p d)) (cur2 x1) (fun f => x2 (ix2 0 f)) f := by
  unfold qRows projRow cur2
  rw [addf_apply, matmulQ_apply, broadcastTo_1b_ab_apply, shapeCast_self]
  refine congrArg (· + x2 (ix2 0 f)) (Finset.sum_congr rfl fun d _ => ?_)
  rw [shapeCast_1ab_ab_apply]

/-- The scores of the block's query rows against the loaded key rows. -/
def scoreMat (x0 : FVec Ideal S1x512x160 .f32) (x1 : FVec Ideal S160x160 .f32) (x2 : FVec Ideal S1x160 .f32)
    (x3 : FVec Ideal S1x2048x160 .f32) : FVec Ideal S512x2048 .f32 :=
  matmul dot_S512x160_S2048x160_S512x2048_1_1_0_0_n_n none (truncf .bf16 (qRows x0 x1 x2) bitsLt_bf16_f32)
    (truncf .bf16 (shapeCast S2048x160 x3 shapeCasts_S1x2048x160_S2048x160) bitsLt_bf16_f32)
    (constant S512x2048 .f32 0x00000000#32)

/-- Row p of the scores is the score row of the block's row p. -/
theorem scoreMat_apply (x0 : FVec Ideal S1x512x160 .f32) (x1 : FVec Ideal S160x160 .f32) (x2 : FVec Ideal S1x160 .f32)
    (x3 : FVec Ideal S1x2048x160 .f32) (p : Fin 512) (j : Fin 2048) :
    scoreMat x0 x1 x2 x3 (ix2 p j)
      = rowScores (fun d => x0 (ix3 0 p d)) (cur2 x1) (fun f => x2 (ix2 0 f)) (fun j f => x3 (ix3 0 j f)) j := by
  unfold scoreMat rowScores
  rw [matmulS_apply]
  refine Finset.sum_congr rfl fun f _ => ?_
  rw [truncf_apply, truncf_apply, qRows_apply, shapeCast_1ab_ab_apply]

/-- The unnormalised weights: the exponentials of the scores less their row's maximum. -/
def weightMat (x0 : FVec Ideal S1x512x160 .f32) (x1 : FVec Ideal S160x160 .f32) (x2 : FVec Ideal S1x160 .f32)
    (x3 : FVec Ideal S1x2048x160 .f32) : FVec Ideal S512x2048 .f32 :=
  exp (subf (scoreMat x0 x1 x2 x3)
    (broadcastTo S512x2048
      (shapeCast S512x1
        (multiReduction .maximumf [1] S512 (scoreMat x0 x1 x2 x3) 0xFF800000#32 reduces_S512x2048_S512 (.inl rfl) rfl)
        shapeCasts_S512_S512x1)
      broadcasts_S512x1_S512x2048))

/-- Row p of the weights is the weight row of the block's row p. -/
theorem weightMat_apply (x0 : FVec Ideal S1x512x160 .f32) (x1 : FVec Ideal S160x160 .f32) (x2 : FVec Ideal S1x160 .f32)
    (x3 : FVec Ideal S1x2048x160 .f32) (p : Fin 512) (j : Fin 2048) :
    weightMat x0 x1 x2 x3 (ix2 p j)
      = weight (rowScores (fun d => x0 (ix3 0 p d)) (cur2 x1) (fun f => x2 (ix2 0 f)) (fun j f => x3 (ix3 0 j f))) j := by
  have hs : (fun j => scoreMat x0 x1 x2 x3 (ix2 p j))
      = rowScores (fun d => x0 (ix3 0 p d)) (cur2 x1) (fun f => x2 (ix2 0 f)) (fun j f => x3 (ix3 0 j f)) :=
    funext fun j => scoreMat_apply x0 x1 x2 x3 p j
  unfold weightMat weight
  rw [exp_apply, subf_apply, broadcastTo_a1_ab_apply, shapeCast_a_a1_apply, rowMaxRed_apply, hs, scoreMat_apply]

/-- The stored block is the last stages over the weights. -/
theorem k1_pay1_eq (x0 : FVec Ideal S1x512x160 .f32) (x1 : FVec Ideal S160x160 .f32) (x2 : FVec Ideal S1x160 .f32)
    (x3 x4 : FVec Ideal S1x2048x160 .f32) :
    k1_pay1 (F := Ideal) x0 x1 x2 x3 x4
      = shapeCast S1x512x160
          (addf
            (mulf
              (matmul dot_S512x2048_S2048x160_S512x160_1_0_0_1_n_n none (truncf .bf16 (weightMat x0 x1 x2 x3) bitsLt_bf16_f32)
                (truncf .bf16 (shapeCast S2048x160 x4 shapeCasts_S1x2048x160_S2048x160) bitsLt_bf16_f32)
                (constant S512x160 .f32 0x00000000#32))
              (broadcastTo S512x160
                (divf (broadcast S512x1 (Scalar.ofBits (F := Ideal) .f32 0x3F800000#32))
                  (shapeCast S512x1
                    (multiReduction .add [1] S512 (weightMat x0 x1 x2 x3) 0x00000000#32 reduces_S512x2048_S512 (.inl rfl) rfl)
                    shapeCasts_S512_S512x1))
                broadcasts_S512x1_S512x160))
            (shapeCast S512x160 x0 shapeCasts_S1x512x160_S512x160))
          shapeCasts_S512x160_S1x512x160 := rfl

/-- The stored block at row p and feature e is the attention row of the block's row p against the loaded keys and values. -/
theorem attnPayload_apply (x0 : Vec Ideal S1x512x160 .f32) (x1 : Vec Ideal S160x160 .f32) (x2 : Vec Ideal S1x160 .f32)
    (x3 x4 : Vec Ideal S1x2048x160 .f32) (p : Fin 512) (e : Fin 160) :
    (k1_pay1 (F := Ideal) x0 x1 x2 x3 x4) (ix3 0 p e)
      = attnRow (fun d => x0 (ix3 0 p d)) (cur2 x1) (fun f => x2 (ix2 0 f)) (fun j f => x3 (ix3 0 j f))
          (fun j f => x4 (ix3 0 j f)) e := by
  have hw : (fun j => weightMat x0 x1 x2 x3 (ix2 p j))
      = weight (rowScores (fun d => x0 (ix3 0 p d)) (cur2 x1) (fun f => x2 (ix2 0 f)) (fun j f => x3 (ix3 0 j f))) :=
    funext fun j => weightMat_apply x0 x1 x2 x3 p j
  rw [k1_pay1_eq, shapeCast_ab_1ab_apply, addf_apply, mulf_apply, matmulV_apply, broadcastTo_a1_ab_apply, divf_apply,
    broadcast_apply, shapeCast_a_a1_apply, rowSumRed_apply, shapeCast_1ab_ab_apply, hw]
  unfold attnRow denom one32
  refine congrArg (fun t => t * _ + _) (Finset.sum_congr rfl fun j _ => ?_)
  rw [truncf_apply, truncf_apply, weightMat_apply, shapeCast_1ab_ab_apply]

end Cert.KernelIdeal.AttnPayload

end
-- ==== Proof.ProjValue.lean ====
/-
  The first launch: the key and value projections of y. Each grid point (n, b) loads rows 512 b … 512 b + 511 of
  batch n of y, the whole weight matrix and the bias row, and stores that block of rows times the weights plus the
  bias: one row of the result depends on the same row of y only. The 16 × 4 blocks tile the result arrays, so after the
  launch each array is the linear layer applied to every row of y.
-/
import proofs.«132824_g83305185673742_cont_9to1c4b_147_4_alg».proof.Proof.Gen.KernelIdeal.Frame
import proofs.«132824_g83305185673742_cont_9to1c4b_147_4_alg».proof.Proof.AttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Cert.KernelIdeal Cert.KernelIdeal.Gen Cert.Attn
open Idealize.ShloMosaic Idealize.ShloMosaic.TcCoe Idealize.SL.Sem Idealize.ShloMosaic.ValueIdx
open Idealize.ShloMosaic.Pipeline (Dat)

/-! ## The matrix product of the layer: a row of the block against a column of the weights -/

theorem lhs_layer_0 (j : S512x160.Idx) (q : dot_S512x160_S160x160_S512x160_1_0_0_1_n_n.contr.Idx) :
    (dot_S512x160_S160x160_S512x160_1_0_0_1_n_n.lhsIdx j q 0).val = (j 0).val := by
  unfold DotDims.lhsIdx
  rw [dif_neg (show ¬(0 : Fin S512x160.rank) ∈ dot_S512x160_S160x160_S512x160_1_0_0_1_n_n.lhsBatch by decide), dif_pos (show (0 : Fin S512x160.rank) ∈ dot_S512x160_S160x160_S512x160_1_0_0_1_n_n.lhsNonContracting by decide)]
  rfl
theorem lhs_layer_1 (j : S512x160.Idx) (q : dot_S512x160_S160x160_S512x160_1_0_0_1_n_n.contr.Idx) :
    (dot_S512x160_S160x160_S512x160_1_0_0_1_n_n.lhsIdx j q 1).val = (q ⟨0, by decide⟩).val :=
  dot_S512x160_S160x160_S512x160_1_0_0_1_n_n.lhsIdx_val_of_single rfl j q
theorem rhs_layer_0 (j : S512x160.Idx) (q : dot_S512x160_S160x160_S512x160_1_0_0_1_n_n.contr.Idx) :
    (dot_S512x160_S160x160_S512x160_1_0_0_1_n_n.rhsIdx j q 0).val = (q ⟨0, by decide⟩).val :=
  dot_S512x160_S160x160_S512x160_1_0_0_1_n_n.rhsIdx_val_of_single rfl j q
theorem rhs_layer_1 (j : S512x160.Idx) (q : dot_S512x160_S160x160_S512x160_1_0_0_1_n_n.contr.Idx) :
    (dot_S512x160_S160x160_S512x160_1_0_0_1_n_n.rhsIdx j q 1).val = (j 1).val := by
  unfold DotDims.rhsIdx
  rw [dif_neg (show ¬(1 : Fin S160x160.rank) ∈ dot_S512x160_S160x160_S512x160_1_0_0_1_n_n.rhsBatch by decide), dif_pos (show (1 : Fin S160x160.rank) ∈ dot_S512x160_S160x160_S512x160_1_0_0_1_n_n.rhsNonContracting by decide)]
  rfl

/-- The product into the zero accumulator, at row p and column e: the sum over the 160 features of the row's entry
    times the weight's. -/
theorem layer_matmul_apply (a : FVec Ideal S512x160 .f32) (w : FVec Ideal S160x160 .f32) (p : Fin 512) (e : Fin 160) :
    matmul dot_S512x160_S160x160_S512x160_1_0_0_1_n_n none a w (constant (F := Ideal) S512x160 .f32 0x00000000#32) (ix2 p e)
      = ∑ d : Fin 160, a (ix2 p d) * w (ix2 d e) := by
  refine (Ideal.matmul_constant_zero_apply dot_S512x160_S160x160_S512x160_1_0_0_1_n_n none a w (ix2 p e)).trans ?_
  rw [← Equiv.sum_comp (contrEquiv1 dot_S512x160_S160x160_S512x160_1_0_0_1_n_n 160 rfl rfl).symm]
  refine Finset.sum_congr rfl fun k _ => ?_
  have hk := contrEquiv1_symm_val dot_S512x160_S160x160_S512x160_1_0_0_1_n_n 160 rfl rfl k
  have el : dot_S512x160_S160x160_S512x160_1_0_0_1_n_n.lhsIdx (ix2 p e) ((contrEquiv1 dot_S512x160_S160x160_S512x160_1_0_0_1_n_n 160 rfl rfl).symm k) = ix2 p k := funext fun a => Fin.ext (by
    match a with
    | ⟨0, _⟩ => exact lhs_layer_0 _ _
    | ⟨1, _⟩ => exact (lhs_layer_1 _ _).trans hk)
  have er : dot_S512x160_S160x160_S512x160_1_0_0_1_n_n.rhsIdx (ix2 p e) ((contrEquiv1 dot_S512x160_S160x160_S512x160_1_0_0_1_n_n 160 rfl rfl).symm k) = ix2 k e := funext fun a => Fin.ext (by
    match a with
    | ⟨0, _⟩ => exact (rhs_layer_0 _ _).trans hk
    | ⟨1, _⟩ => exact rhs_layer_1 _ _)
  rw [el, er]

/-- The loaded block with its unit batch axis dropped, at row p and feature d. -/
theorem rows_apply (x0 : Vec Ideal S1x512x160 .f32) (p : Fin 512) (d : Fin 160) :
    (k0_pay1 (F := Ideal) x0) (ix2 p d) = x0 (ix3 0 p d) := by
  unfold k0_pay1
  exact shapeCast_1ab_ab_apply x0 _ p d

/-- The block the body stores for the keys, at row p and feature e: that row of the loaded block through the layer. -/
theorem keyPayload_apply (x0 : Vec Ideal S1x512x160 .f32) (x1 : Vec Ideal S160x160 .f32) (x2 : Vec Ideal S1x160 .f32)
    (p : Fin 512) (e : Fin 160) :
    (k0_pay2 (F := Ideal) x0 x1 x2) (ix3 0 p e)
      = projRow (fun d => x0 (ix3 0 p d)) (cur2 x1) (fun f => x2 (ix2 0 f)) e := by
  unfold k0_pay2
  refine (shapeCast_ab_1ab_apply _ _ (0 : Fin 1) p e).trans ?_
  refine (addf_apply _ _ (ix2 p e)).trans ?_
  unfold projRow cur2
  refine congrArg₂ (· + ·) ?_ ?_
  · refine (layer_matmul_apply (k0_pay1 (F := Ideal) x0) x1 p e).trans ?_
    exact Finset.sum_congr rfl fun d _ => congrArg (· * x1 (ix2 d e)) (rows_apply x0 p d)
  · refine (broadcastTo_1b_ab_apply _ _ p e).trans ?_
    exact congrFun (shapeCast_self x2 _) (ix2 0 e)

/-- The same for the values. -/
theorem valPayload_apply (x0 : Vec Ideal S1x512x160 .f32) (x1 : Vec Ideal S160x160 .f32) (x2 : Vec Ideal S1x160 .f32)
    (p : Fin 512) (e : Fin 160) :
    (k0_pay3 (F := Ideal) x0 x1 x2) (ix3 0 p e)
      = projRow (fun d => x0 (ix3 0 p d)) (cur2 x1) (fun f => x2 (ix2 0 f)) e := by
  unfold k0_pay3
  refine (shapeCast_ab_1ab_apply _ _ (0 : Fin 1) p e).trans ?_
  refine (addf_apply _ _ (ix2 p e)).trans ?_
  unfold projRow cur2
  refine congrArg₂ (· + ·) ?_ ?_
  · refine (layer_matmul_apply (k0_pay1 (F := Ideal) x0) x1 p e).trans ?_
    exact Finset.sum_congr rfl fun d _ => congrArg (· * x1 (ix2 d e)) (rows_apply x0 p d)
  · refine (broadcastTo_1b_ab_apply _ _ p e).trans ?_
    exact congrFun (shapeCast_self x2 _) (ix2 0 e)

/-! ## From the blocks to the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- One stored element of the keys block, as the layer of one row of an array A under weights Wm and bias row Bv, given
    that the loaded row is that row of A, the loaded weights are Wm and the loaded bias row is Bv. -/
theorem key_point (x0 : Vec Ideal S1x512x160 .f32) (x1 : Vec Ideal S160x160 .f32) (x2 : Vec Ideal S1x160 .f32)
    (A : S16x2048x160.Idx → EReal) (Wm : S160x160.Idx → EReal) (Bv : S1x160.Idx → EReal)
    (y : S1x512x160.Idx) (i : S16x2048x160.Idx)
    (hA : ∀ d : Fin 160, x0 (ix3 0 (y 1) d) = A (ix3 (i 0) (i 1) d))
    (hW : x1 = Wm) (hB : x2 = Bv) (he : (y 2).val = (i 2).val) :
    k0_pay2 (F := Ideal) x0 x1 x2 y = unc3 (proj (cur3 A) (cur2 Wm) (fun f => Bv (ix2 0 f))) i := by
  subst hW hB
  obtain ⟨n, r, e', rfl⟩ : ∃ (n : Fin 16) (r : Fin 2048) (e' : Fin 160), i = ix3 n r e' := ⟨i 0, i 1, i 2, eq_ix3 i⟩
  obtain ⟨u, p, e, rfl⟩ : ∃ (u : Fin 1) (p : Fin 512) (e : Fin 160), y = ix3 u p e := ⟨y 0, y 1, y 2, eq_ix3 y⟩
  obtain rfl : u = 0 := Subsingleton.elim _ _
  obtain rfl : e = e' := Fin.ext he
  rw [unc3_ix3]
  refine (keyPayload_apply x0 x1 x2 p e).trans ?_
  unfold projRow proj cur3
  exact congrArg (· + x2 (ix2 0 e)) (Finset.sum_congr rfl fun d _ => congrArg (· * cur2 x1 d e) (hA d))

/-- The same for the values block. -/
theorem val_point (x0 : Vec Ideal S1x512x160 .f32) (x1 : Vec Ideal S160x160 .f32) (x2 : Vec Ideal S1x160 .f32)
    (A : S16x2048x160.Idx → EReal) (Wm : S160x160.Idx → EReal) (Bv : S1x160.Idx → EReal)
    (y : S1x512x160.Idx) (i : S16x2048x160.Idx)
    (hA : ∀ d : Fin 160, x0 (ix3 0 (y 1) d) = A (ix3 (i 0) (i 1) d))
    (hW : x1 = Wm) (hB : x2 = Bv) (he : (y 2).val = (i 2).val) :
    k0_pay3 (F := Ideal) x0 x1 x2 y = unc3 (proj (cur3 A) (cur2 Wm) (fun f => Bv (ix2 0 f))) i := by
  subst hW hB
  obtain ⟨n, r, e', rfl⟩ : ∃ (n : Fin 16) (r : Fin 2048) (e' : Fin 160), i = ix3 n r e' := ⟨i 0, i 1, i 2, eq_ix3 i⟩
  obtain ⟨u, p, e, rfl⟩ : ∃ (u : Fin 1) (p : Fin 512) (e : Fin 160), y = ix3 u p e := ⟨y 0, y 1, y 2, eq_ix3 y⟩
  obtain rfl : u = 0 := Subsingleton.elim _ _
  obtain rfl : e = e' := Fin.ext he
  rw [unc3_ix3]
  refine (valPayload_apply x0 x1 x2 p e).trans ?_
  unfold projRow proj cur3
  exact congrArg (· + x2 (ix2 0 e)) (Finset.sum_congr rfl fun d _ => congrArg (· * cur2 x1 d e) (hA d))

/-- The printed index maps over the grid: the block of y a point loads and the two blocks it stores sit at the same
    place, (n, b, 0); the weights and the bias rows are loaded whole. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_6.index t (0 : Fin 3) = win0_5.index t (0 : Fin 3) ∧ win0_6.index t (1 : Fin 3) = win0_5.index t (1 : Fin 3)
    ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of the result arrays is some point's. -/
theorem idx_onto : ∀ (q0 : Fin 16) (q1 : Fin 4), ∃ t : Fin cfg0.N,
    win0_5.index t = ![q0.val, q1.val, 0] ∧ win0_6.index t = ![q0.val, q1.val, 0] :=
  (by decide +kernel : ∀ (q0 : Fin 16) (q1 : Fin 4), ∃ t : Fin grid0.N,
    win0_5.index t = ![q0.val, q1.val, 0] ∧ win0_6.index t = ![q0.val, q1.val, 0])

section Blocks
variable (V : (c : Dev nD) → (b : Ref sig .tc) → Buf (Elt Ideal) ((c : Thread nD τ).loc b))

/-- The weights of the key layer are loaded whole at every point. -/
theorem keyWeights_eq (c : Dev nD) (t : Fin cfg0.N) :
    (iblk0 V c 1 t : S160x160.Idx → EReal) = (V c main_arg4 : S160x160.Idx → EReal) := by
  obtain ⟨-, -, -, -, -, -, -, e0, e1, -⟩ := idx_facts t
  funext y
  unfold iblk0
  rw [View.read_apply]
  show (V c main_arg4 : S160x160.Idx → EReal) (((cfg0.win 1).blk t).view.emb y) = _
  refine congrArg (V c main_arg4 : S160x160.Idx → EReal) (funext fun a => Fin.ext ?_)
  match a with
  | ⟨0, _⟩ => show win0_1.index t (0 : Fin 2) * 160 + 1 * (y 0).val = (y 0).val; omega
  | ⟨1, _⟩ => show win0_1.index t (1 : Fin 2) * 160 + 1 * (y 1).val = (y 1).val; omega

/-- So is the bias row of the key layer. -/
theorem keyBias_eq (c : Dev nD) (t : Fin cfg0.N) :
    (iblk0 V c 2 t : S1x160.Idx → EReal) = (V c main_v1 : S1x160.Idx → EReal) := by
  obtain ⟨-, -, -, -, -, -, -, -, -, e0, e1, -⟩ := idx_facts t
  funext y
  unfold iblk0
  rw [View.read_apply]
  show (V c main_v1 : S1x160.Idx → EReal) (((cfg0.win 2).blk t).view.emb y) = _
  refine congrArg (V c main_v1 : S1x160.Idx → EReal) (funext fun a => Fin.ext ?_)
  match a with
  | ⟨0, _⟩ => show win0_2.index t (0 : Fin 2) * 1 + 1 * (y 0).val = (y 0).val; omega
  | ⟨1, _⟩ => show win0_2.index t (1 : Fin 2) * 160 + 1 * (y 1).val = (y 1).val; omega

/-- The weights of the value layer are loaded whole at every point. -/
theorem valWeights_eq (c : Dev nD) (t : Fin cfg0.N) :
    (iblk0 V c 3 t : S160x160.Idx → EReal) = (V c main_arg6 : S160x160.Idx → EReal) := by
  obtain ⟨-, -, -, -, -, -, -, -, -, -, -, e0, e1, -⟩ := idx_facts t
  funext y
  unfold iblk0
  rw [View.read_apply]
  show (V c main_arg6 : S160x160.Idx → EReal) (((cfg0.win 3).blk t).view.emb y) = _
  refine congrArg (V c main_arg6 : S160x160.Idx → EReal) (funext fun a => Fin.ext ?_)
  match a with
  | ⟨0, _⟩ => show win0_3.index t (0 : Fin 2) * 160 + 1 * (y 0).val = (y 0).val; omega
  | ⟨1, _⟩ => show win0_3.index t (1 : Fin 2) * 160 + 1 * (y 1).val = (y 1).val; omega

/-- So is the bias row of the value layer. -/
theorem valBias_eq (c : Dev nD) (t : Fin cfg0.N) :
    (iblk0 V c 4 t : S1x160.Idx → EReal) = (V c main_v2 : S1x160.Idx → EReal) := by
  obtain ⟨-, -, -, -, -, -, -, -, -, -, -, -, -, e0, e1⟩ := idx_facts t
  funext y
  unfold iblk0
  rw [View.read_apply]
  show (V c main_v2 : S1x160.Idx → EReal) (((cfg0.win 4).blk t).view.emb y) = _
  refine congrArg (V c main_v2 : S1x160.Idx → EReal) (funext fun a => Fin.ext ?_)
  match a with
  | ⟨0, _⟩ => show win0_4.index t (0 : Fin 2) * 1 + 1 * (y 0).val = (y 0).val; omega
  | ⟨1, _⟩ => show win0_4.index t (1 : Fin 2) * 160 + 1 * (y 1).val = (y 1).val; omega

/-- A row of the block of y a point loads is the row of y at the same place as the row of the keys block the point
    stores. -/
theorem rows_key (c : Dev nD) (t : Fin cfg0.N) (j : S1x512x160.Idx) (d : Fin 160) :
    (iblk0 V c 0 t : S1x512x160.Idx → EReal) (ix3 0 (j 1) d)
      = (V c main_arg1 : S16x2048x160.Idx → EReal)
          (ix3 ((((cfg0.win 5).blk t).view.emb j : S16x2048x160.Idx) 0) ((((cfg0.win 5).blk t).view.emb j : S16x2048x160.Idx) 1) d) := by
  obtain ⟨e0, e1, e2, -⟩ := idx_facts t
  unfold iblk0
  rw [View.read_apply]
  show (V c main_arg1 : S16x2048x160.Idx → EReal) (((cfg0.win 0).blk t).view.emb (ix3 0 (j 1) d)) = _
  refine congrArg (V c main_arg1 : S16x2048x160.Idx → EReal) (funext fun a => Fin.ext ?_)
  have h0 : (j 0).val < 1 := (j 0).isLt
  match a with
  | ⟨0, _⟩ => show win0_0.index t (0 : Fin 3) * 1 + 1 * 0 = win0_5.index t (0 : Fin 3) * 1 + 1 * (j 0).val; omega
  | ⟨1, _⟩ => show win0_0.index t (1 : Fin 3) * 512 + 1 * (j 1).val = win0_5.index t (1 : Fin 3) * 512 + 1 * (j 1).val; omega
  | ⟨2, _⟩ => show win0_0.index t (2 : Fin 3) * 160 + 1 * d.val = d.val; omega

/-- The same against the values block. -/
theorem rows_val (c : Dev nD) (t : Fin cfg0.N) (j : S1x512x160.Idx) (d : Fin 160) :
    (iblk0 V c 0 t : S1x512x160.Idx → EReal) (ix3 0 (j 1) d)
      = (V c main_arg1 : S16x2048x160.Idx → EReal)
          (ix3 ((((cfg0.win 6).blk t).view.emb j : S16x2048x160.Idx) 0) ((((cfg0.win 6).blk t).view.emb j : S16x2048x160.Idx) 1) d) := by
  obtain ⟨e0, e1, e2, e3, e4, e5, -⟩ := idx_facts t
  unfold iblk0
  rw [View.read_apply]
  show (V c main_arg1 : S16x2048x160.Idx → EReal) (((cfg0.win 0).blk t).view.emb (ix3 0 (j 1) d)) = _
  refine congrArg (V c main_arg1 : S16x2048x160.Idx → EReal) (funext fun a => Fin.ext ?_)
  have h0 : (j 0).val < 1 := (j 0).isLt
  match a with
  | ⟨0, _⟩ => show win0_0.index t (0 : Fin 3) * 1 + 1 * 0 = win0_6.index t (0 : Fin 3) * 1 + 1 * (j 0).val; omega
  | ⟨1, _⟩ => show win0_0.index t (1 : Fin 3) * 512 + 1 * (j 1).val = win0_6.index t (1 : Fin 3) * 512 + 1 * (j 1).val; omega
  | ⟨2, _⟩ => show win0_0.index t (2 : Fin 3) * 160 + 1 * d.val = d.val; omega

end Blocks

section Final
variable (V : (c : Dev nD) → (b : Ref sig .tc) → Buf (Elt Ideal) ((c : Thread nD τ).loc b))

/-- What a point writes back to the keys array is its block of the key layer applied to every row of y. -/
theorem keys_flushed (c : Dev nD) (t : Fin cfg0.N) :
    (dat0 (F := Ideal) V c).flushed 5 t = ((cfg0.win 5).blk t).view.read (Elt Ideal)
      (unc3 (proj (cur3 (V c main_arg1)) (cur2 (V c main_arg4)) (fun f => (V c main_v1 : S1x160.Idx → EReal) (ix2 0 f)))) := by
  show (cfg0.win 5).cut (grid0.coords t) ((dat0 V c).after 5 t) = _
  rw [after0_5]
  unfold out0_5
  rw [View.canon_unit_zero hz3]
  simp only [View.ld_unit_zero (S := S1x512x160) hz3, View.ld_unit_zero (S := S160x160) hz2, View.ld_unit_zero (S := S1x160) hz2]
  obtain ⟨-, -, -, e3, -⟩ := idx_facts t
  funext j
  rw [View.read_apply]
  refine key_point (iblk0 V c 0 t) (iblk0 V c 1 t) (iblk0 V c 2 t) (V c main_arg1) (V c main_arg4) (V c main_v1) j
    (((cfg0.win 5).blk t).view.emb j) (fun d => rows_key V c t j d) (keyWeights_eq V c t) (keyBias_eq V c t) ?_
  show (j 2).val = win0_5.index t (2 : Fin 3) * 160 + 1 * (j 2).val
  omega

/-- What a point writes back to the values array is its block of the value layer applied to every row of y. -/
theorem vals_flushed (c : Dev nD) (t : Fin cfg0.N) :
    (dat0 (F := Ideal) V c).flushed 6 t = ((cfg0.win 6).blk t).view.read (Elt Ideal)
      (unc3 (proj (cur3 (V c main_arg1)) (cur2 (V c main_arg6)) (fun f => (V c main_v2 : S1x160.Idx → EReal) (ix2 0 f)))) := by
  show (cfg0.win 6).cut (grid0.coords t) ((dat0 V c).after 6 t) = _
  rw [after0_6]
  unfold out0_6
  rw [View.canon_unit_zero hz3]
  simp only [View.ld_unit_zero (S := S1x512x160) hz3, View.ld_unit_zero (S := S160x160) hz2, View.ld_unit_zero (S := S1x160) hz2]
  obtain ⟨-, -, -, -, -, -, e6, -⟩ := idx_facts t
  funext j
  rw [View.read_apply]
  refine val_point (iblk0 V c 0 t) (iblk0 V c 3 t) (iblk0 V c 4 t) (V c main_arg1) (V c main_arg6) (V c main_v2) j
    (((cfg0.win 6).blk t).view.emb j) (fun d => rows_val V c t j d) (valWeights_eq V c t) (valBias_eq V c t) ?_
  show (j 2).val = win0_6.index t (2 : Fin 3) * 160 + 1 * (j 2).val
  omega

/-- An index of the keys array is in a point's block iff each coordinate is in the block's range on its axis. -/
theorem mem_keyBlk (t : Fin cfg0.N) (i : S16x2048x160.Idx) :
    i ∈ ((cfg0.win 5).blk t).view.set ↔ ∀ a : Fin 3, win0_5.index t a * S1x512x160.size a ≤ (i a).val ∧ (i a).val < win0_5.index t a * S1x512x160.size a + S1x512x160.size a := by
  show i ∈ ((View.whole main_v3_0).slice (win0_5.rect t)).set ↔ _
  rw [View.set_slice_whole, Rect.mem_set_unit]
  exact Iff.rfl

/-- The same for the values array. -/
theorem mem_valBlk (t : Fin cfg0.N) (i : S16x2048x160.Idx) :
    i ∈ ((cfg0.win 6).blk t).view.set ↔ ∀ a : Fin 3, win0_6.index t a * S1x512x160.size a ≤ (i a).val ∧ (i a).val < win0_6.index t a * S1x512x160.size a + S1x512x160.size a := by
  show i ∈ ((View.whole main_v3_1).slice (win0_6.rect t)).set ↔ _
  rw [View.set_slice_whole, Rect.mem_set_unit]
  exact Iff.rfl

/-- The 16 × 4 blocks tile the keys array: entry (n, r, e) is in the block of the point with block indices (n, r / 512, 0). -/
theorem keys_cover (i : S16x2048x160.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 160 := (i 2).isLt
  obtain ⟨t, ht, -⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_keyBlk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 160 ≤ (i 2).val ∧ (i 2).val < win0_5.index t (2 : Fin 3) * 160 + 160; omega

/-- And the values array. -/
theorem vals_cover (i : S16x2048x160.Idx) :
    ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 160 := (i 2).isLt
  obtain ⟨t, -, ht⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_valBlk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 160 ≤ (i 2).val ∧ (i 2).val < win0_6.index t (2 : Fin 3) * 160 + 160; omega

end Final

/-- The keys array after the first launch, from the contents V the launch was entered with. -/
theorem keys_final (V : (c : Dev nD) → (b : Ref sig .tc) → Buf (Elt Ideal) ((c : Thread nD τ).loc b)) (c : Dev nD) :
    (dat0 (F := Ideal) V c).arrAt 5 cfg0.N
      = unc3 (proj (cur3 (V c main_arg1)) (cur2 (V c main_arg4)) (fun f => (V c main_v1 : S1x160.Idx → EReal) (ix2 0 f))) :=
  (dat0 (F := Ideal) V c).arrAt_eq_of_cover 5 _ (fun t _ => keys_flushed V c t) keys_cover

/-- The values array after the first launch. -/
theorem vals_final (V : (c : Dev nD) → (b : Ref sig .tc) → Buf (Elt Ideal) ((c : Thread nD τ).loc b)) (c : Dev nD) :
    (dat0 (F := Ideal) V c).arrAt 6 cfg0.N
      = unc3 (proj (cur3 (V c main_arg1)) (cur2 (V c main_arg6)) (fun f => (V c main_v2 : S1x160.Idx → EReal) (ix2 0 f))) :=
  (dat0 (F := Ideal) V c).arrAt_eq_of_cover 6 _ (fun t _ => vals_flushed V c t) vals_cover

variable (m : (ℓ : Loc nD τ sig) → Buf (Elt Ideal) ℓ) (ρ : Dev nD → PrngReg)

/-! ## What the first launch is entered with: the launch memory, the bias vectors reshaped to rows -/

/-- The reshapes before the first launch write none of the argument arrays. -/
theorem entry_main_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl
theorem entry_main_arg4 (c : Dev nD) : V1 m ρ c main_arg4 = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl
theorem entry_main_arg6 (c : Dev nD) : V1 m ρ c main_arg6 = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg6) := rfl

/-- The key layer's bias row, as the launch finds it: the bias vector with a unit axis in front. -/
theorem entry_keyBias (c : Dev nD) (f : Fin 160) :
    (V1 m ρ c main_v1 : S1x160.Idx → EReal) (ix2 0 f) = cur1 (m ((c : Thread nD τ).loc main_arg5)) f := by
  have e : (V1 m ρ c main_v1 : S1x160.Idx → EReal)
      = shapeCast S1x160 (m ((c : Thread nD τ).loc main_arg5) : S160.Idx → EReal) Cert.KernelIdeal.Facts₀.shapeCasts_S160_S1x160 := by
    show StableHlo.after hostOps0 (fun b => m (c, b)) (Proc.devRef .tc main_v1) = _
    after_results
    rfl
  rw [e]
  exact shapeCast_a_1a_apply _ _ (0 : Fin 1) f

/-- The value layer's bias row likewise. -/
theorem entry_valBias (c : Dev nD) (f : Fin 160) :
    (V1 m ρ c main_v2 : S1x160.Idx → EReal) (ix2 0 f) = cur1 (m ((c : Thread nD τ).loc main_arg7)) f := by
  have e : (V1 m ρ c main_v2 : S1x160.Idx → EReal)
      = shapeCast S1x160 (m ((c : Thread nD τ).loc main_arg7) : S160.Idx → EReal) Cert.KernelIdeal.Facts₀.shapeCasts_S160_S1x160 := by
    show StableHlo.after hostOps0 (fun b => m (c, b)) (Proc.devRef .tc main_v2) = _
    after_results
    rfl
  rw [e]
  exact shapeCast_a_1a_apply _ _ (0 : Fin 1) f

/-- What the second launch finds in the keys buffer: the key layer applied to every row of the argument y. -/
theorem keys_arr (c : Dev nD) :
    (V2 m ρ c main_v3_0 : S16x2048x160.Idx → EReal)
      = unc3 (proj (cur3 (m ((c : Thread nD τ).loc main_arg1))) (cur2 (m ((c : Thread nD τ).loc main_arg4)))
          (cur1 (m ((c : Thread nD τ).loc main_arg5)))) := by
  refine ((W2_arr m ρ c 5).trans (keys_final (V1 m ρ) c)).trans ?_
  rw [entry_main_arg1, entry_main_arg4]
  exact congrArg (fun b => unc3 (proj (cur3 (m ((c : Thread nD τ).loc main_arg1))) (cur2 (m ((c : Thread nD τ).loc main_arg4))) b))
    (funext fun f => entry_keyBias m ρ c f)

/-- What the second launch finds in the values buffer. -/
theorem vals_arr (c : Dev nD) :
    (V2 m ρ c main_v3_1 : S16x2048x160.Idx → EReal)
      = unc3 (proj (cur3 (m ((c : Thread nD τ).loc main_arg1))) (cur2 (m ((c : Thread nD τ).loc main_arg6)))
          (cur1 (m ((c : Thread nD τ).loc main_arg7)))) := by
  refine ((W2_arr m ρ c 6).trans (vals_final (V1 m ρ) c)).trans ?_
  rw [entry_main_arg1, entry_main_arg6]
  exact congrArg (fun b => unc3 (proj (cur3 (m ((c : Thread nD τ).loc main_arg1))) (cur2 (m ((c : Thread nD τ).loc main_arg6))) b))
    (funext fun f => entry_valBias m ρ c f)

end Cert.KernelIdeal.Proj

end
-- ==== Proof.AttnValue.lean ====
/-
  The second launch and the whole run. Grid point (n, b) loads rows 512 b … 512 b + 511 of batch n of x, the query
  weights and bias, and ALL 2048 key rows and value rows of batch n, and stores the attention rows of its block of x;
  the 16 × 4 blocks tile the result. The keys and values it finds are what the first launch left, the linear layers of
  y, so the result buffer ends at the attention output that normalises after the weighted sum, as a function of the
  eight arguments.
-/
import proofs.«132824_g83305185673742_cont_9to1c4b_147_4_alg».proof.Proof.Gen.KernelIdeal.Frame
import proofs.«132824_g83305185673742_cont_9to1c4b_147_4_alg».proof.Proof.AttnSpec
import proofs.«132824_g83305185673742_cont_9to1c4b_147_4_alg».proof.Proof.AttnPayload
import proofs.«132824_g83305185673742_cont_9to1c4b_147_4_alg».proof.Proof.ProjValue
import proofs.«132824_g83305185673742_cont_9to1c4b_147_4_alg».proof.Proof.KernelRun
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Attn

open Cert.KernelIdeal Cert.KernelIdeal.Gen Cert.Attn
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided once over the 64 grid points: the block of x and the result block move together
    at block indices (n, b, 0) with n < 16 and b < 4; the keys and values blocks are batch n whole; the weights and
    the bias are their arrays whole. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0 ∧ win1_5.index t (2 : Fin 3) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_5.index t (0 : Fin 3) < 16 ∧ win1_5.index t (1 : Fin 3) < 4 :=
  (by decide +kernel : ∀ t : Fin grid1.N, _)

/-- Every block (n, b, 0) of the result is some grid point's. -/
theorem idx_onto : ∀ (q0 : Fin 16) (q1 : Fin 4), ∃ t : Fin cfg1.N, win1_5.index t = ![q0.val, q1.val, 0] :=
  (by decide +kernel : ∀ (q0 : Fin 16) (q1 : Fin 4), ∃ t : Fin grid1.N, win1_5.index t = ![q0.val, q1.val, 0])

section Point

variable (V : (c : Dev nD) → (b : Ref sig .tc) → Buf (Elt Ideal) ((c : Thread nD τ).loc b)) (c : Dev nD)

/-- What the result array ends holding: every row of x through the attention row against its batch's keys and values. -/
abbrev G : S16x2048x160.Idx → EReal :=
  unc3 (fun n i e => attnRow (cur3 (V c main_arg0) n i) (cur2 (V c main_arg2))
          (fun f => (V c main_v0 : S1x160.Idx → EReal) (ix2 0 f)) (cur3 (V c main_v3_0) n) (cur3 (V c main_v3_1) n) e)

/-- An element of a rank-3 window's block at point t is the array's element at block index × block size + the
    coordinate inside the block, axis by axis. -/
theorem iblk_x (t : Fin cfg1.N) (y : S1x512x160.Idx) (k : S16x2048x160.Idx)
    (h0 : (k 0).val = win1_0.index t (0 : Fin 3) * 1 + 1 * (y 0).val)
    (h1 : (k 1).val = win1_0.index t (1 : Fin 3) * 512 + 1 * (y 1).val)
    (h2 : (k 2).val = win1_0.index t (2 : Fin 3) * 160 + 1 * (y 2).val) :
    (iblk1 V c 0 t : Vec Ideal S1x512x160 .f32) y = (V c main_arg0 : S16x2048x160.Idx → EReal) k := by
  unfold iblk1
  rw [View.read_apply]
  show V c main_arg0 _ = V c main_arg0 _
  congr 1
  funext a
  apply Fin.ext
  match a with
  | ⟨0, _⟩ => exact h0.symm
  | ⟨1, _⟩ => exact h1.symm
  | ⟨2, _⟩ => exact h2.symm

theorem iblk_k (t : Fin cfg1.N) (y : S1x2048x160.Idx) (k : S16x2048x160.Idx)
    (h0 : (k 0).val = win1_3.index t (0 : Fin 3) * 1 + 1 * (y 0).val)
    (h1 : (k 1).val = win1_3.index t (1 : Fin 3) * 2048 + 1 * (y 1).val)
    (h2 : (k 2).val = win1_3.index t (2 : Fin 3) * 160 + 1 * (y 2).val) :
    (iblk1 V c 3 t : Vec Ideal S1x2048x160 .f32) y = (V c main_v3_0 : S16x2048x160.Idx → EReal) k := by
  unfold iblk1
  rw [View.read_apply]
  show V c main_v3_0 _ = V c main_v3_0 _
  congr 1
  funext a
  apply Fin.ext
  match a with
  | ⟨0, _⟩ => exact h0.symm
  | ⟨1, _⟩ => exact h1.symm
  | ⟨2, _⟩ => exact h2.symm

theorem iblk_v (t : Fin cfg1.N) (y : S1x2048x160.Idx) (k : S16x2048x160.Idx)
    (h0 : (k 0).val = win1_4.index t (0 : Fin 3) * 1 + 1 * (y 0).val)
    (h1 : (k 1).val = win1_4.index t (1 : Fin 3) * 2048 + 1 * (y 1).val)
    (h2 : (k 2).val = win1_4.index t (2 : Fin 3) * 160 + 1 * (y 2).val) :
    (iblk1 V c 4 t : Vec Ideal S1x2048x160 .f32) y = (V c main_v3_1 : S16x2048x160.Idx → EReal) k := by
  unfold iblk1
  rw [View.read_apply]
  show V c main_v3_1 _ = V c main_v3_1 _
  congr 1
  funext a
  apply Fin.ext
  match a with
  | ⟨0, _⟩ => exact h0.symm
  | ⟨1, _⟩ => exact h1.symm
  | ⟨2, _⟩ => exact h2.symm

theorem iblk_w (t : Fin cfg1.N) (y : S160x160.Idx) (k : S160x160.Idx)
    (h0 : (k 0).val = win1_1.index t (0 : Fin 2) * 160 + 1 * (y 0).val)
    (h1 : (k 1).val = win1_1.index t (1 : Fin 2) * 160 + 1 * (y 1).val) :
    (iblk1 V c 1 t : Vec Ideal S160x160 .f32) y = (V c main_arg2 : S160x160.Idx → EReal) k := by
  unfold iblk1
  rw [View.read_apply]
  show V c main_arg2 _ = V c main_arg2 _
  congr 1
  funext a
  apply Fin.ext
  match a with
  | ⟨0, _⟩ => exact h0.symm
  | ⟨1, _⟩ => exact h1.symm

theorem iblk_b (t : Fin cfg1.N) (y : S1x160.Idx) (k : S1x160.Idx)
    (h0 : (k 0).val = win1_2.index t (0 : Fin 2) * 1 + 1 * (y 0).val)
    (h1 : (k 1).val = win1_2.index t (1 : Fin 2) * 160 + 1 * (y 1).val) :
    (iblk1 V c 2 t : Vec Ideal S1x160 .f32) y = (V c main_v0 : S1x160.Idx → EReal) k := by
  unfold iblk1
  rw [View.read_apply]
  show V c main_v0 _ = V c main_v0 _
  congr 1
  funext a
  apply Fin.ext
  match a with
  | ⟨0, _⟩ => exact h0.symm
  | ⟨1, _⟩ => exact h1.symm

end Point

/-- What grid point t writes back is block t of G: row p of the block is row 512 b + p of batch n of x, run against
    batch n of the keys and values. -/
theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz3]
  simp only [View.ld_unit_zero (S := S1x512x160) hz3, View.ld_unit_zero (S := S160x160) hz2,
    View.ld_unit_zero (S := S1x160) hz2, View.ld_unit_zero (S := S1x2048x160) hz3]
  obtain ⟨f0, f1, f2, f3, f4, f5, f6, f7, f8, f9, f10, f11, f12, f13, hn, hb⟩ := idx_facts t
  funext j
  obtain ⟨z, p, e, rfl⟩ : ∃ (z : Fin 1) (p : Fin 512) (e : Fin 160), j = ix3 z p e := ⟨j 0, j 1, j 2, eq_ix3 j⟩
  obtain rfl : z = 0 := Fin.ext (by omega)
  have hp : p.val < 512 := p.isLt
  have hr : win1_5.index t (1 : Fin 3) * 512 + p.val < 2048 := by omega
  rw [View.read_apply]
  have hemb : ((cfg1.win 5).blk t).view.emb (ix3 (0 : Fin 1) p e)
      = ix3 (⟨win1_5.index t (0 : Fin 3), hn⟩ : Fin 16) (⟨win1_5.index t (1 : Fin 3) * 512 + p.val, hr⟩ : Fin 2048) e := by
    funext a; apply Fin.ext
    match a with
    | ⟨0, _⟩ => show win1_5.index t (0 : Fin 3) * 1 + 1 * 0 = win1_5.index t (0 : Fin 3); omega
    | ⟨1, _⟩ => show win1_5.index t (1 : Fin 3) * 512 + 1 * p.val = win1_5.index t (1 : Fin 3) * 512 + p.val; omega
    | ⟨2, _⟩ => show win1_5.index t (2 : Fin 3) * 160 + 1 * e.val = e.val; omega
  rw [hemb]
  refine (Cert.KernelIdeal.AttnPayload.attnPayload_apply (iblk1 V c 0 t) (iblk1 V c 1 t) (iblk1 V c 2 t) (iblk1 V c 3 t)
    (iblk1 V c 4 t) p e).trans ?_
  have e0 : (fun d : Fin 160 => (iblk1 V c 0 t : Vec Ideal S1x512x160 .f32) (ix3 (0 : Fin 1) p d))
      = cur3 (V c main_arg0) (⟨win1_5.index t (0 : Fin 3), hn⟩ : Fin 16) (⟨win1_5.index t (1 : Fin 3) * 512 + p.val, hr⟩ : Fin 2048) :=
    funext fun d => iblk_x V c t (ix3 (0 : Fin 1) p d) (ix3 _ _ d)
      (by show win1_5.index t (0 : Fin 3) = win1_0.index t (0 : Fin 3) * 1 + 1 * 0; omega)
      (by show win1_5.index t (1 : Fin 3) * 512 + p.val = win1_0.index t (1 : Fin 3) * 512 + 1 * p.val; omega)
      (by show d.val = win1_0.index t (2 : Fin 3) * 160 + 1 * d.val; omega)
  have e1 : cur2 (iblk1 V c 1 t : Vec Ideal S160x160 .f32) = cur2 (V c main_arg2) :=
    funext fun d => funext fun f => iblk_w V c t (ix2 d f) (ix2 d f)
      (by show d.val = win1_1.index t (0 : Fin 2) * 160 + 1 * d.val; omega)
      (by show f.val = win1_1.index t (1 : Fin 2) * 160 + 1 * f.val; omega)
  have e2 : (fun f : Fin 160 => (iblk1 V c 2 t : Vec Ideal S1x160 .f32) (ix2 (0 : Fin 1) f))
      = fun f => (V c main_v0 : S1x160.Idx → EReal) (ix2 (0 : Fin 1) f) :=
    funext fun f => iblk_b V c t (ix2 (0 : Fin 1) f) (ix2 (0 : Fin 1) f)
      (by show 0 = win1_2.index t (0 : Fin 2) * 1 + 1 * 0; omega)
      (by show f.val = win1_2.index t (1 : Fin 2) * 160 + 1 * f.val; omega)
  have e3 : (fun (j : Fin 2048) (f : Fin 160) => (iblk1 V c 3 t : Vec Ideal S1x2048x160 .f32) (ix3 (0 : Fin 1) j f))
      = cur3 (V c main_v3_0) (⟨win1_5.index t (0 : Fin 3), hn⟩ : Fin 16) :=
    funext fun j => funext fun f => iblk_k V c t (ix3 (0 : Fin 1) j f) (ix3 _ j f)
      (by show win1_5.index t (0 : Fin 3) = win1_3.index t (0 : Fin 3) * 1 + 1 * 0; omega)
      (by show j.val = win1_3.index t (1 : Fin 3) * 2048 + 1 * j.val; omega)
      (by show f.val = win1_3.index t (2 : Fin 3) * 160 + 1 * f.val; omega)
  have e4 : (fun (j : Fin 2048) (f : Fin 160) => (iblk1 V c 4 t : Vec Ideal S1x2048x160 .f32) (ix3 (0 : Fin 1) j f))
      = cur3 (V c main_v3_1) (⟨win1_5.index t (0 : Fin 3), hn⟩ : Fin 16) :=
    funext fun j => funext fun f => iblk_v V c t (ix3 (0 : Fin 1) j f) (ix3 _ j f)
      (by show win1_5.index t (0 : Fin 3) = win1_4.index t (0 : Fin 3) * 1 + 1 * 0; omega)
      (by show j.val = win1_4.index t (1 : Fin 3) * 2048 + 1 * j.val; omega)
      (by show f.val = win1_4.index t (2 : Fin 3) * 160 + 1 * f.val; omega)
  rw [e0, e1, e2, e3, e4]
  rfl

/-- An index of the result array is in point t's block iff each coordinate is in the block's range on its axis. -/
theorem mem_blk (t : Fin cfg1.N) (i : S16x2048x160.Idx) :
    i ∈ ((cfg1.win 5).blk t).view.set ↔ ∀ a : Fin 3, win1_5.index t a * S1x512x160.size a ≤ (i a).val
      ∧ (i a).val < win1_5.index t a * S1x512x160.size a + S1x512x160.size a := by
  show i ∈ ((View.whole main_v4).slice (win1_5.rect t)).set ↔ _
  rw [View.set_slice_whole, Rect.mem_set_unit]
  exact Iff.rfl

/-- The 16 × 4 blocks of 512 rows tile the result: row r of batch n is in the block of the point with block indices
    (n, r / 512, 0). -/
theorem cover (i : S16x2048x160.Idx) : ∃ t : Fin cfg1.N, (cfg1.win 5).flush t = true ∧ i ∈ ((cfg1.win 5).blk t).view.set := by
  have hi0 : (i 0).val < 16 := (i 0).isLt
  have hi1 : (i 1).val < 2048 := (i 1).isLt
  have hi2 : (i 2).val < 160 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 160 ≤ (i 2).val ∧ (i 2).val < win1_5.index t (2 : Fin 3) * 160 + 160; omega

/-- The result array after the second launch, from the contents V the launch was entered with. -/
theorem attn_final (V : (c : Dev nD) → (b : Ref sig .tc) → Buf (Elt Ideal) ((c : Thread nD τ).loc b)) (c : Dev nD) :
    (dat1 (F := Ideal) V c).arrAt 5 cfg1.N
      = unc3 (fun n i e => attnRow (cur3 (V c main_arg0) n i) (cur2 (V c main_arg2))
          (fun f => (V c main_v0 : S1x160.Idx → EReal) (ix2 0 f)) (cur3 (V c main_v3_0) n) (cur3 (V c main_v3_1) n) e) :=
  (dat1 (F := Ideal) V c).arrAt_eq_of_cover 5 (G V c) (fun t _ => flushed_eq V c t) cover

variable (m : (ℓ : Loc nD τ sig) → Buf (Elt Ideal) ℓ) (ρ : Dev nD → PrngReg)

/-- The bias row the second launch finds is the query bias with a unit axis in front. -/
theorem V1_main_v0 (c : Dev nD) :
    (V1 m ρ c main_v0 : S1x160.Idx → EReal)
      = shapeCast S1x160 (m ((c : Thread nD τ).loc main_arg3) : S160.Idx → EReal) shapeCasts_S160_S1x160 := by
  show StableHlo.after hostOps0 (fun b => m (c, b)) (Proc.devRef .tc main_v0) = _
  after_results
  rfl

/-- No host operation writes x or the query weights. -/
theorem V1_main_arg0 (c : Dev nD) : V1 m ρ c main_arg0 = m ((c : Thread nD τ).loc main_arg0) := by
  show StableHlo.after hostOps0 (fun b => m (c, b)) (Proc.devRef .tc main_arg0) = _
  after_results

theorem V1_main_arg2 (c : Dev nD) : V1 m ρ c main_arg2 = m ((c : Thread nD τ).loc main_arg2) := by
  show StableHlo.after hostOps0 (fun b => m (c, b)) (Proc.devRef .tc main_arg2) = _
  after_results

/-- The first launch writes only the keys and values, so the second finds x, the query weights and the bias row as
    the first did. -/
theorem V2_main_arg0 (c : Dev nD) : V2 m ρ c main_arg0 = m ((c : Thread nD τ).loc main_arg0) :=
  (W2_of_ne m ρ c main_arg0 (by decide)).trans (V1_main_arg0 m ρ c)

theorem V2_main_arg2 (c : Dev nD) : V2 m ρ c main_arg2 = m ((c : Thread nD τ).loc main_arg2) :=
  (W2_of_ne m ρ c main_arg2 (by decide)).trans (V1_main_arg2 m ρ c)

theorem V2_main_v0 (c : Dev nD) (f : Fin 160) :
    (V2 m ρ c main_v0 : S1x160.Idx → EReal) (ix2 (0 : Fin 1) f) = cur1 (m ((c : Thread nD τ).loc main_arg3)) f := by
  have h : V2 m ρ c main_v0 = V1 m ρ c main_v0 := W2_of_ne m ρ c main_v0 (by decide)
  rw [h, V1_main_v0]
  exact shapeCast_a_1a_apply _ _ 0 f

/-- The result buffer after the run, as a function of the eight arguments. -/
theorem result_eq (c : Dev nD) :
    (W3 m ρ c (Proc.devRef .tc main_v4) : S16x2048x160.Idx → EReal)
      = unc3 (outAfter (cur3 (m ((c : Thread nD τ).loc main_arg0))) (cur3 (m ((c : Thread nD τ).loc main_arg1)))
          (cur2 (m ((c : Thread nD τ).loc main_arg2))) (cur1 (m ((c : Thread nD τ).loc main_arg3)))
          (cur2 (m ((c : Thread nD τ).loc main_arg4))) (cur1 (m ((c : Thread nD τ).loc main_arg5)))
          (cur2 (m ((c : Thread nD τ).loc main_arg6))) (cur1 (m ((c : Thread nD τ).loc main_arg7)))) := by
  have h5 : W3 m ρ c (Proc.devRef .tc main_v4) = (dat1 (V2 m ρ) c).arrAt 5 cfg1.N := W3_arr m ρ c 5
  rw [h5, attn_final (V2 m ρ) c]
  refine congrArg unc3 (funext fun n => funext fun i => funext fun e => ?_)
  have hb : (fun f : Fin 160 => (V2 m ρ c main_v0 : S1x160.Idx → EReal) (ix2 (0 : Fin 1) f))
      = cur1 (m ((c : Thread nD τ).loc main_arg3)) := funext (V2_main_v0 m ρ c)
  rw [outAfter_eq_attnRow, Cert.KernelIdeal.Proj.keys_arr m ρ c, Cert.KernelIdeal.Proj.vals_arr m ρ c, V2_main_arg0, V2_main_arg2, hb]
  rfl

/-- The kernel's run: the result buffer at that function of the arguments, the arguments unchanged. -/
theorem run : θ_run defs (onTc (τ := τ) (main (F := Ideal))) ⟨m, fun _ => 0, ρ⟩ (fun r => ∀ c : Dev nD,
      r.2.mem ((c.tc : Thread nD τ).loc main_v4)
        = unc3 (outAfter (cur3 (m ((c : Thread nD τ).loc main_arg0))) (cur3 (m ((c : Thread nD τ).loc main_arg1)))
          (cur2 (m ((c : Thread nD τ).loc main_arg2))) (cur1 (m ((c : Thread nD τ).loc main_arg3)))
          (cur2 (m ((c : Thread nD τ).loc main_arg4))) (cur1 (m ((c : Thread nD τ).loc main_arg5)))
          (cur2 (m ((c : Thread nD τ).loc main_arg6))) (cur1 (m ((c : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Run.run_result m ρ)

end Cert.KernelIdeal.Attn

end
-- ==== Proof.RefValue.lean ====
/-
  The reference, read index by index: its result at (n, i, e) is the weighted sum over the keys j of
  (w_j / l) · v[n, j, e] plus x[n, i, e], the weights normalised BEFORE the sum — the arrangement outBefore of the
  specification. The row maximum is a fold of max over the key index from minus infinity, and the further maximum
  with minus infinity the reference takes changes nothing.
-/
import proofs.«132824_g83305185673742_cont_9to1c4b_147_4_alg».proof.Defs
import proofs.«132824_g83305185673742_cont_9to1c4b_147_4_alg».proof.Proof.Gen.ReferenceIdeal.Read
import proofs.«132824_g83305185673742_cont_9to1c4b_147_4_alg».proof.Proof.AttnSpec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Attn
open Idealize.ShloMosaic Idealize.ShloMosaic.ValueIdx

/-! ## The three linear layers

Each is a contraction of an activation row with a weight column plus the bias entry of that column: at (n, r, f) the
left operand is read at (n, r, k), the right at (k, f), and the bias, broadcast over batches and rows, at f. -/

/-- The left operand of a layer's contraction at (n, r, f), term k: the activation at (n, r, k). -/
theorem actIdx_q (n : Fin 16) (r : Fin 2048) (f k : Fin 160) : lidx_main_v0 (ix3 n r f) k = ix3 n r k :=
  funext fun a => Fin.ext (by match a with | ⟨0, _⟩ => rfl | ⟨1, _⟩ => rfl | ⟨2, _⟩ => rfl)

/-- The right operand there: the weight at (k, f). -/
theorem wtIdx_q (n : Fin 16) (r : Fin 2048) (f k : Fin 160) : ridx_main_v0 (ix3 n r f) k = ix2 k f :=
  funext fun a => Fin.ext (by match a with | ⟨0, _⟩ => rfl | ⟨1, _⟩ => rfl)

/-- The bias, broadcast to [1, 1, 160] and then to the whole array, is read at the feature. -/
theorem biasIdx_q (n : Fin 16) (r : Fin 2048) (f : Fin 160) : idx_main_v1 (idx_main_v2 (ix3 n r f)) = ix1 f :=
  funext fun a => Fin.ext (by match a with | ⟨0, _⟩ => rfl)

/-- The query layer at (n, r, f). -/
theorem query_apply (x0 : (⟨S16x2048x160, .f32⟩ : BufTy).Contents (Elt Ideal)) (x2 : (⟨S160x160, .f32⟩ : BufTy).Contents (Elt Ideal))
    (x3 : (⟨S160, .f32⟩ : BufTy).Contents (Elt Ideal)) (n : Fin 16) (r : Fin 2048) (f : Fin 160) :
    val_main_v3 (F := Ideal) x0 x2 x3 (ix3 n r f) = proj (cur3 x0) (cur2 x2) (cur1 x3) n r f := by
  rw [val_main_v3_apply, val_main_v0_apply, val_main_v2_apply, val_main_v1_apply, biasIdx_q]
  show (∑ k : Fin 160, x0 (lidx_main_v0 (ix3 n r f) k) * x2 (ridx_main_v0 (ix3 n r f) k)) + x3 (ix1 f)
    = (∑ d : Fin 160, x0 (ix3 n r d) * x2 (ix2 d f)) + x3 (ix1 f)
  refine congrArg (· + x3 (ix1 f)) (Finset.sum_congr rfl fun k _ => ?_)
  rw [actIdx_q, wtIdx_q]

/-- The key layer is the same program text over other arguments. -/
theorem key_apply (x1 : (⟨S16x2048x160, .f32⟩ : BufTy).Contents (Elt Ideal)) (x4 : (⟨S160x160, .f32⟩ : BufTy).Contents (Elt Ideal))
    (x5 : (⟨S160, .f32⟩ : BufTy).Contents (Elt Ideal)) (n : Fin 16) (r : Fin 2048) (f : Fin 160) :
    val_main_v7 (F := Ideal) x1 x4 x5 (ix3 n r f) = proj (cur3 x1) (cur2 x4) (cur1 x5) n r f :=
  query_apply x1 x4 x5 n r f

/-- And so is the value layer. -/
theorem value_apply (x1 : (⟨S16x2048x160, .f32⟩ : BufTy).Contents (Elt Ideal)) (x6 : (⟨S160x160, .f32⟩ : BufTy).Contents (Elt Ideal))
    (x7 : (⟨S160, .f32⟩ : BufTy).Contents (Elt Ideal)) (n : Fin 16) (r : Fin 2048) (f : Fin 160) :
    val_main_v11 (F := Ideal) x1 x6 x7 (ix3 n r f) = proj (cur3 x1) (cur2 x6) (cur1 x7) n r f :=
  query_apply x1 x6 x7 n r f

/-! ## The scores and the row maximum -/

/-- The left operand of the scores' contraction at (n, i, j), term k: the query at (n, i, k). -/
theorem queryIdx (n : Fin 16) (i j : Fin 2048) (k : Fin 160) : lidx_main_v12 (ix3 n i j) k = ix3 n i k :=
  funext fun a => Fin.ext (by match a with | ⟨0, _⟩ => rfl | ⟨1, _⟩ => rfl | ⟨2, _⟩ => rfl)

/-- The right operand there: the key at (n, j, k). -/
theorem keyIdx (n : Fin 16) (i j : Fin 2048) (k : Fin 160) : ridx_main_v12 (ix3 n i j) k = ix3 n j k :=
  funext fun a => Fin.ext (by match a with | ⟨0, _⟩ => rfl | ⟨1, _⟩ => rfl | ⟨2, _⟩ => rfl)

/-- The score of query row i against key row j of batch n. -/
theorem scores_apply (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (n : Fin 16) (i j : Fin 2048) :
    val_main_v12 (F := Ideal) x0 x1 x2 x3 x4 x5 (ix3 n i j)
      = scores (cur3 x0) (cur3 x1) (cur2 x2) (cur1 x3) (cur2 x4) (cur1 x5) n i j := by
  rw [val_main_v12_apply]
  unfold scores score
  refine Finset.sum_congr rfl fun k _ => ?_
  rw [queryIdx, keyIdx, query_apply, key_apply]

/-- The index over (n, i) whose key coordinate is j. -/
theorem keyLift (h : S16x2048x2048.Reduces [2] S16x2048) (n : Fin 16) (i : Fin 2048) (j : Fin 2048) :
    h.lift (ix2 n i) j = ix3 n i j :=
  funext fun a => Fin.ext (by match a with | ⟨0, _⟩ => rfl | ⟨1, _⟩ => rfl | ⟨2, _⟩ => rfl)

/-- The reduction over the keys at (n, i): the fold of max from minus infinity over the score row. -/
theorem reduceMax_apply (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (n : Fin 16) (i : Fin 2048) :
    val_main_v13 (F := Ideal) x0 x1 x2 x3 x4 x5 (ix2 n i)
      = rowMax (scores (cur3 x0) (cur3 x1) (cur2 x2) (cur1 x3) (cur2 x4) (cur1 x5) n i) := by
  have h : S16x2048x2048.Reduces [2] S16x2048 := by decide
  unfold val_main_v13
  refine (Host.reduce_eq_fold_single FloatOps.maximumf _ _ reducesTo_S16x2048x2048_S16x2048_d2 h h_S_ _).trans ?_
  show (Finset.univ : Finset (Fin 2048)).fold max negInf
      (fun k : Fin 2048 => val_main_v12 (F := Ideal) x0 x1 x2 x3 x4 x5 (h.lift (ix2 n i) k)) = _
  unfold rowMax
  refine Finset.fold_congr fun k _ => ?_
  show val_main_v12 (F := Ideal) x0 x1 x2 x3 x4 x5 (h.lift (ix2 n i) k) = _
  rw [keyLift, scores_apply]

/-- The row maximum as the reference takes it: the further maximum with minus infinity changes nothing. -/
theorem rowMax_apply (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (n : Fin 16) (i : Fin 2048) :
    val_main_v15 (F := Ideal) x0 x1 x2 x3 x4 x5 (ix2 n i)
      = rowMax (scores (cur3 x0) (cur3 x1) (cur2 x2) (cur1 x3) (cur2 x4) (cur1 x5) n i) := by
  rw [val_main_v15_apply, val_main_v14_apply, val_main_cst_0_apply, reduceMax_apply]
  show max negInf (rowMax _) = rowMax _
  refine max_eq_right ?_
  unfold rowMax
  rw [Finset.le_fold_max]
  exact Or.inl le_rfl

/-! ## The weights, their sum, and the output -/

/-- The row maximum, broadcast along the keys, is read at (n, i). -/
theorem rowIdx_max (n : Fin 16) (i j : Fin 2048) : idx_main_v16 (idx_main_v17 (ix3 n i j)) = ix2 n i :=
  funext fun a => Fin.ext (by match a with | ⟨0, _⟩ => rfl | ⟨1, _⟩ => rfl)

/-- The unnormalised weight of key j for query row (n, i): the exponential of the score less the row maximum. -/
theorem weight_apply (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (n : Fin 16) (i j : Fin 2048) :
    val_main_v19 (F := Ideal) x0 x1 x2 x3 x4 x5 (ix3 n i j)
      = weight (scores (cur3 x0) (cur3 x1) (cur2 x2) (cur1 x3) (cur2 x4) (cur1 x5) n i) j := by
  rw [val_main_v19_apply, val_main_v18_apply, val_main_v17_apply, val_main_v16_apply, rowIdx_max, rowMax_apply, scores_apply]
  rfl

/-- The operand of the sum over the keys at (n, i), term j: the weight at (n, i, j). -/
theorem sumIdx (n : Fin 16) (i j : Fin 2048) : idx_main_v20 (ix2 n i) j = ix3 n i j :=
  funext fun a => Fin.ext (by match a with | ⟨0, _⟩ => rfl | ⟨1, _⟩ => rfl | ⟨2, _⟩ => rfl)

/-- The softmax denominator of query row (n, i): the sum of the weights from the zero word. -/
theorem denom_apply (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (n : Fin 16) (i : Fin 2048) :
    val_main_v20 (F := Ideal) x0 x1 x2 x3 x4 x5 (ix2 n i)
      = denom (scores (cur3 x0) (cur3 x1) (cur2 x2) (cur1 x3) (cur2 x4) (cur1 x5) n i) := by
  rw [val_main_v20_apply, val_main_cst_1_apply]
  show Ideal.ofBits .f32 0x00000000#32 + _ = _
  rw [Ideal.ofBits_zero_f32, zero_add]
  unfold denom
  refine Finset.sum_congr rfl fun j _ => ?_
  rw [sumIdx, weight_apply]

/-- The denominator, broadcast along the keys, is read at (n, i). -/
theorem rowIdx_sum (n : Fin 16) (i j : Fin 2048) : idx_main_v21 (idx_main_v22 (ix3 n i j)) = ix2 n i :=
  funext fun a => Fin.ext (by match a with | ⟨0, _⟩ => rfl | ⟨1, _⟩ => rfl)

/-- The normalised weight of key j for query row (n, i). -/
theorem normWeight_apply (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (n : Fin 16) (i j : Fin 2048) :
    val_main_v23 (F := Ideal) x0 x1 x2 x3 x4 x5 (ix3 n i j)
      = Ideal.div (weight (scores (cur3 x0) (cur3 x1) (cur2 x2) (cur1 x3) (cur2 x4) (cur1 x5) n i) j)
          (denom (scores (cur3 x0) (cur3 x1) (cur2 x2) (cur1 x3) (cur2 x4) (cur1 x5) n i)) := by
  rw [val_main_v23_apply, val_main_v22_apply, val_main_v21_apply, rowIdx_sum, denom_apply, weight_apply]
  rfl

/-- The left operand of the last contraction at (n, i, e), term j: the normalised weight at (n, i, j). -/
theorem weightIdx (n : Fin 16) (i : Fin 2048) (e : Fin 160) (j : Fin 2048) : lidx_main_v24 (ix3 n i e) j = ix3 n i j :=
  funext fun a => Fin.ext (by match a with | ⟨0, _⟩ => rfl | ⟨1, _⟩ => rfl | ⟨2, _⟩ => rfl)

/-- The right operand there: the value at (n, j, e). -/
theorem valueIdx (n : Fin 16) (i : Fin 2048) (e : Fin 160) (j : Fin 2048) : ridx_main_v24 (ix3 n i e) j = ix3 n j e :=
  funext fun a => Fin.ext (by match a with | ⟨0, _⟩ => rfl | ⟨1, _⟩ => rfl | ⟨2, _⟩ => rfl)

/-- The weighted sum of the values with the normalised weights, at (n, i, e). -/
theorem weighted_apply (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (x6 : (⟨S160x160, .f32⟩ : BufTy).Contents (Elt Ideal))
    (x7 : (⟨S160, .f32⟩ : BufTy).Contents (Elt Ideal)) (n : Fin 16) (i : Fin 2048) (e : Fin 160) :
    val_main_v24 (F := Ideal) x0 x1 x2 x3 x4 x5 x6 x7 (ix3 n i e)
      = ∑ j : Fin 2048, Ideal.div (weight (scores (cur3 x0) (cur3 x1) (cur2 x2) (cur1 x3) (cur2 x4) (cur1 x5) n i) j)
          (denom (scores (cur3 x0) (cur3 x1) (cur2 x2) (cur1 x3) (cur2 x4) (cur1 x5) n i))
            * proj (cur3 x1) (cur2 x6) (cur1 x7) n j e := by
  rw [val_main_v24_apply]
  refine Finset.sum_congr rfl fun j _ => ?_
  rw [weightIdx, valueIdx, normWeight_apply, value_apply]

/-- The reference's last stage is the attention output that normalises the weights before the weighted sum. -/
theorem ref_eq (x0 x1 : (⟨S16x2048x160, .f32⟩ : BufTy).Contents (Elt Ideal)) (x2 : (⟨S160x160, .f32⟩ : BufTy).Contents (Elt Ideal))
    (x3 : (⟨S160, .f32⟩ : BufTy).Contents (Elt Ideal)) (x4 : (⟨S160x160, .f32⟩ : BufTy).Contents (Elt Ideal))
    (x5 : (⟨S160, .f32⟩ : BufTy).Contents (Elt Ideal)) (x6 : (⟨S160x160, .f32⟩ : BufTy).Contents (Elt Ideal))
    (x7 : (⟨S160, .f32⟩ : BufTy).Contents (Elt Ideal)) :
    val_main_v25 (F := Ideal) x0 x1 x2 x3 x4 x5 x6 x7
      = unc3 (outBefore (cur3 x0) (cur3 x1) (cur2 x2) (cur1 x3) (cur2 x4) (cur1 x5) (cur2 x6) (cur1 x7)) := by
  refine ext3 fun n i e => ?_
  rw [unc3_ix3, val_main_v25_apply, weighted_apply]
  rfl

end Cert.ReferenceIdeal.RefValue

end
-- ==== Proof.Finite.lean ====
/-
  From the precondition to real entries. The precondition is the conjunction, array by array, of "every entry's
  absolute value is below plus infinity"; an extended real whose absolute value max a (-a) is below plus infinity is
  neither infinity, so it is a real number.
-/
import proofs.«132824_g83305185673742_cont_9to1c4b_147_4_alg».proof.Pre_finite_inputs
import proofs.«132824_g83305185673742_cont_9to1c4b_147_4_alg».proof.Proof.Gen.Pre_finite_inputs
import proofs.«132824_g83305185673742_cont_9to1c4b_147_4_alg».proof.Proof.AttnSpec
import Idealize.ShloMosaic.Lib.ReduceAll
import Idealize.ShloMosaic.Lib.ValueIdx
import Idealize.ShloMosaic.PureOps.Ideal.Laws

noncomputable section

namespace Cert.Finite

open Cert.Pre_finite_inputs Cert.Attn
open Idealize.ShloMosaic

/-- The pattern 0x7F800000 (sign 0, exponent all ones, significand 0) denotes plus infinity. -/
theorem ofBits_inf : Ideal.ofBits .f32 0x7F800000#32 = (⊤ : EReal) := by
  simp [Ideal.ofBits, Ideal.ieee]

/-- An extended real whose absolute value `max x (-x)` compares below plus infinity is a real number: at `⊥` and at `⊤`
    the absolute value is `⊤`, which is not below itself. -/
theorem isReal_of_abs_lt_inf {x : EReal}
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton S_.Idx := ⟨fun a b => funext fun d => d.elim0⟩

/-- One entry: where the bit of `|x| < +inf` at `i` is 1, `x i` is a real. The broadcast of a constant is that constant at
    every index, and the host's absolute value at Ideal is `max x (-x)`. -/
theorem entry_isReal {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    IsReal (x i) :=
  isReal_of_abs_lt_inf (x := x i) h

/-- One array: where the conjunction over all indices of the bits `|x| < +inf` is 1, every entry of `x` is a real. -/
theorem all_isReal {s : Shape} {axes : List (Fin s.rank)} (hb : S_.BroadcastsInDim s (![] : Fin 0 → Fin s.rank))
    (hr : s.ReducesTo axes S_) (hu : 0 < S_.numel) (x : FVec Ideal s .f32) (init : IVec S_ 1)
    (e : Host.reduce IntOp.andi
        (cmpf .olt (Host.absf x) (broadcastInDim s ![] hb (constant (F := Ideal) S_ .f32 0x7F800000#32))) init hr hu
        ValueIdx.ix0 = 1#1) (i : s.Idx) : IsReal (x i) :=
  entry_isReal hb x i (Host.reduce_andi_all _ init hr hu ValueIdx.ix0 e i)

/-- Where the precondition holds, the six arrays the scores are computed from hold real numbers. -/
theorem isReal_of_finite (a0 a1 : FVec Ideal S16x2048x160 .f32) (a2 : FVec Ideal S160x160 .f32) (a3 : FVec Ideal S160 .f32)
    (a4 : FVec Ideal S160x160 .f32) (a5 : FVec Ideal S160 .f32) (a6 : FVec Ideal S160x160 .f32) (a7 : FVec Ideal S160 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  -- the precondition at its one index is the conjunction of the eight arrays' conjunctions, nested to the left
  have h0 := congrFun h ValueIdx.ix0
  dsimp only [Cert.Pre_finite_inputs.fn, Cert.Pre_finite_inputs.fn_part1, Cert.Pre_finite_inputs.fn_part2] at h0
  obtain ⟨h0, -⟩ := IntOp.andi_eq_one.1 h0
  obtain ⟨h0, -⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_isReal _ _ _ a0 _ e0, all_isReal _ _ _ a1 _ e1, all_isReal _ _ _ a2 _ e2, all_isReal _ _ _ a3 _ e3,
    all_isReal _ _ _ a4 _ e4, all_isReal _ _ _ a5 _ e5⟩

end Cert.Finite

end
-- ==== Proof.lean ====
/-
  Single-head cross-attention with a residual: q = x Wq + bq, k = y Wk + bk, v = y Wv + bv,
  out = softmax (q kᵀ) v + x, over 16 batches of 2048 rows of 160 features.

  The kernel computes k and v in a first launch and, in a second, for each block of 512 query rows the scores
  against all 2048 keys of the batch, their row maximum m, the weights w = exp (s - m), their sum l, the weighted sum
  of the values, and then multiplies by 1 / l: it normalises AFTER the matrix product. The reference divides the
  weights by l BEFORE the product. Where every input is finite the scores are real numbers, l is a positive real, and
  on the extended reals a product with the nonnegative real 1 / l distributes over the sum over the keys, so the two
  arrangements are one function of the arguments (AttnSpec). Changes of float format are the identity on the extended
  reals and every matrix product is the exact sum over its contracted index, so tiling and operand precision make no
  difference.

  The three frames: the two kernel programs by their frame certificates; the reference by its run with the result
  dropped. The idealization rewrote nothing, so there is nothing to preserve.
-/
import proofs.«132824_g83305185673742_cont_9to1c4b_147_4_alg».proof.Defs
import proofs.«132824_g83305185673742_cont_9to1c4b_147_4_alg».proof.Proof.Gen.Kernel
import proofs.«132824_g83305185673742_cont_9to1c4b_147_4_alg».proof.Proof.Gen.Kernel.Skeleton
import proofs.«132824_g83305185673742_cont_9to1c4b_147_4_alg».proof.Proof.Gen.Kernel.Launch
import proofs.«132824_g83305185673742_cont_9to1c4b_147_4_alg».proof.Proof.Gen.Kernel.Points
import proofs.«132824_g83305185673742_cont_9to1c4b_147_4_alg».proof.Proof.Gen.Kernel.Frame
import proofs.«132824_g83305185673742_cont_9to1c4b_147_4_alg».proof.Proof.Gen.KernelIdeal
import proofs.«132824_g83305185673742_cont_9to1c4b_147_4_alg».proof.Proof.Gen.KernelIdeal.Skeleton
import proofs.«132824_g83305185673742_cont_9to1c4b_147_4_alg».proof.Proof.Gen.KernelIdeal.Launch
import proofs.«132824_g83305185673742_cont_9to1c4b_147_4_alg».proof.Proof.Gen.KernelIdeal.Points
import proofs.«132824_g83305185673742_cont_9to1c4b_147_4_alg».proof.Proof.Gen.KernelIdeal.Frame
import proofs.«132824_g83305185673742_cont_9to1c4b_147_4_alg».proof.Proof.Gen.ReferenceIdeal
import proofs.«132824_g83305185673742_cont_9to1c4b_147_4_alg».proof.Proof.Gen.ReferenceIdeal.Run
import proofs.«132824_g83305185673742_cont_9to1c4b_147_4_alg».proof.Proof.Gen.ReferenceIdeal.Read
import proofs.«132824_g83305185673742_cont_9to1c4b_147_4_alg».proof.Proof.Gen.Pre_finite_inputs
import proofs.«132824_g83305185673742_cont_9to1c4b_147_4_alg».proof.Proof.AttnSpec
import proofs.«132824_g83305185673742_cont_9to1c4b_147_4_alg».proof.Proof.AttnValue
import proofs.«132824_g83305185673742_cont_9to1c4b_147_4_alg».proof.Proof.RefValue
import proofs.«132824_g83305185673742_cont_9to1c4b_147_4_alg».proof.Proof.Finite
import Idealize.ShloMosaic.Adequacy
import Idealize.ShloMosaic.Init

noncomputable section

namespace Cert.Proof

open Idealize.ShloMosaic Idealize.ShloMosaic.TcCoe Idealize.SL.Sem Cert.Attn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at one function of the arguments: the kernel at the attention output that
    normalises after the weighted sum, the reference at the one that normalises before it, equal where the six arrays
    the scores are computed from hold reals, which the precondition says. -/
theorem algebraic : Cert.algebraic_KernelIdeal_ReferenceIdeal := by
  intro m ρ m' ρ' hpre hagree
  refine ⟨fun c => unc3 (outAfter (cur3 (m ((c.tc : Thread Cert.KernelIdeal.nD Cert.KernelIdeal.τ).loc Cert.KernelIdeal.main_arg0))) (cur3 (m ((c.tc : Thread Cert.KernelIdeal.nD Cert.KernelIdeal.τ).loc Cert.KernelIdeal.main_arg1))) (cur2 (m ((c.tc : Thread Cert.KernelIdeal.nD Cert.KernelIdeal.τ).loc Cert.KernelIdeal.main_arg2))) (cur1 (m ((c.tc : Thread Cert.KernelIdeal.nD Cert.KernelIdeal.τ).loc Cert.KernelIdeal.main_arg3))) (cur2 (m ((c.tc : Thread Cert.KernelIdeal.nD Cert.KernelIdeal.τ).loc Cert.KernelIdeal.main_arg4))) (cur1 (m ((c.tc : Thread Cert.KernelIdeal.nD Cert.KernelIdeal.τ).loc Cert.KernelIdeal.main_arg5))) (cur2 (m ((c.tc : Thread Cert.KernelIdeal.nD Cert.KernelIdeal.τ).loc Cert.KernelIdeal.main_arg6))) (cur1 (m ((c.tc : Thread Cert.KernelIdeal.nD Cert.KernelIdeal.τ).loc Cert.KernelIdeal.main_arg7)))), Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.ref_eq]
  obtain ⟨e0, e1, e2, e3, e4, e5, e6, e7⟩ := hagree c
  rw [e0, e1, e2, e3, e4, e5, e6, e7]
  obtain ⟨r0, r1, r2, r3, r4, r5⟩ := Cert.Finite.isReal_of_finite _ _ _ _ _ _ _ _ (hpre c)
  exact (congrArg unc3 (outAfter_eq_outBefore _ _ (fun n r d => r0 _) (fun n r d => r1 _) (fun d e => r2 _) (fun e => r3 _)
    (fun d e => r4 _) (fun e => r5 _))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
